-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v27)) (v1 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_v21) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_v56) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x400000 : Shape := ⟨2, ![2, 400000]⟩
abbrev S400000x32 : Shape := ⟨2, ![400000, 32]⟩
abbrev S160x128 : Shape := ⟨2, ![160, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S400000x32 : S_.BroadcastsInDim S400000x32 (![] : Fin 0 → Fin S400000x32.rank)
  reducesTo_S400000x32_S_d0_1 : S400000x32.ReducesTo [0, 1] S_
  bcast_S_S160x128 : S_.BroadcastsInDim S160x128 (![] : Fin 0 → Fin S160x128.rank)
  reducesTo_S160x128_S_d0_1 : S160x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part5 {F : FTy → Type} [FloatOps F] (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  main_v88

def fn_part4 {F : FTy → Type} [FloatOps F] (main_arg15 : FVec F S128x64 .f32) (main_arg16 : FVec F S64 .f32) (main_arg17 : FVec F S64 .f32) (main_arg18 : FVec F S64 .f32) (main_v63 : IVec S_ 1) (main_v67 : IVec S_ 1) : IVec S_ 1 :=
  let main_v68 : IVec S_ 1 := andi main_v63 main_v67
  let main_v69 : FVec F S128x64 .f32 := Host.absf main_arg15
  let main_cst_26 : FVec F S_ .f32 := constant S_ .f32 0x7F800000#32
  let main_v70 : FVec F S128x64 .f32 := broadcastInDim S128x64 ![] bcast_S_S128x64 main_cst_26
  let main_v71 : IVec S128x64 1 := cmpf .olt main_v69 main_v70
  let main_c_27 : IVec S_ 1 := constantI S_ 1 1#1
  let main_v72 : IVec S_ 1 := (fun x v => Host.reduce IntOp.andi x v reducesTo_S128x64_S_d0_1 h_S_) main_v71 main_c_27
  let main_v73 : IVec S_ 1 := andi main_v68 main_v72
  let main_v74 : FVec F S64 .f32 := Host.absf main_arg16
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64 .f32 := Host.absf main_arg17
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64 .f32 := Host.absf main_arg18
  let main_cst_32 : FVec F S_ .f32 := constant S_ .f32 0x7F800000#32
  fn_part5 (F := F) main_v83 main_v84 main_cst_32

def fn_part3 {F : FTy → Type} [FloatOps F] (main_arg12 : FVec F S128 .f32) (main_arg13 : FVec F S128x128 .f32) (main_arg14 : FVec F S128 .f32) (main_arg15 : FVec F S128x64 .f32) (main_arg16 : FVec F S64 .f32) (main_arg17 : FVec F S64 .f32) (main_arg18 : FVec F S64 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg13
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg15 main_arg16 main_arg17 main_arg18 main_v63 main_v67

def fn_part2 {F : FTy → Type} [FloatOps F] (main_arg8 : FVec F S64 .f32) (main_arg9 : FVec F S64 .f32) (main_arg10 : FVec F S64 .f32) (main_arg11 : FVec F S128x128 .f32) (main_arg12 : FVec F S128 .f32) (main_arg13 : FVec F S128x128 .f32) (main_arg14 : FVec F S128 .f32) (main_arg15 : FVec F S128x64 .f32) (main_arg16 : FVec F S64 .f32) (main_arg17 : FVec F S64 .f32) (main_arg18 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg12 main_arg13 main_arg14 main_arg15 main_arg16 main_arg17 main_arg18 main_v48 main_v49 main_v50

def fn_part1 {F : FTy → Type} [FloatOps F] (main_arg5 : FVec F S128x128 .f32) (main_arg6 : FVec F S128 .f32) (main_arg7 : FVec F S128x64 .f32) (main_arg8 : FVec F S64 .f32) (main_arg9 : FVec F S64 .f32) (main_arg10 : FVec F S64 .f32) (main_arg11 : FVec F S128x128 .f32) (main_arg12 : FVec F S128 .f32) (main_arg13 : FVec F S128x128 .f32) (main_arg14 : FVec F S128 .f32) (main_arg15 : FVec F S128x64 .f32) (main_arg16 : FVec F S64 .f32) (main_arg17 : FVec F S64 .f32) (main_arg18 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_v33

def fn {F : FTy → Type} [FloatOps F] (main_arg0 : FVec F S50000x64 .f32) (main_arg1 : IVec S2x400000 32) (main_arg2 : FVec F S400000x32 .f32) (main_arg3 : FVec F S160x128 .f32) (main_arg4 : FVec F S128 .f32) (main_arg5 : FVec F S128x128 .f32) (main_arg6 : FVec F S128 .f32) (main_arg7 : FVec F S128x64 .f32) (main_arg8 : FVec F S64 .f32) (main_arg9 : FVec F S64 .f32) (main_arg10 : FVec F S64 .f32) (main_arg11 : FVec F S128x128 .f32) (main_arg12 : FVec F S128 .f32) (main_arg13 : FVec F S128x128 .f32) (main_arg14 : FVec F S128 .f32) (main_arg15 : FVec F S128x64 .f32) (main_arg16 : FVec F S64 .f32) (main_arg17 : FVec F S64 .f32) (main_arg18 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S400000x32 .f32 := Host.absf main_arg2
  let main_cst_0 : FVec F S_ .f32 := constant S_ .f32 0x7F800000#32
  let main_v5 : FVec F S400000x32 .f32 := broadcastInDim S400000x32 ![] bcast_S_S400000x32 main_cst_0
  let main_v6 : IVec S400000x32 1 := cmpf .olt main_v4 main_v5
  let main_c_1 : IVec S_ 1 := constantI S_ 1 1#1
  let main_v7 : IVec S_ 1 := (fun x v => Host.reduce IntOp.andi x v reducesTo_S400000x32_S_d0_1 h_S_) main_v6 main_c_1
  let main_v8 : IVec S_ 1 := andi main_v3 main_v7
  let main_v9 : FVec F S160x128 .f32 := Host.absf main_arg3
  let main_cst_2 : FVec F S_ .f32 := constant S_ .f32 0x7F800000#32
  let main_v10 : FVec F S160x128 .f32 := broadcastInDim S160x128 ![] bcast_S_S160x128 main_cst_2
  let main_v11 : IVec S160x128 1 := cmpf .olt main_v9 main_v10
  let main_c_3 : IVec S_ 1 := constantI S_ 1 1#1
  let main_v12 : IVec S_ 1 := (fun x v => Host.reduce IntOp.andi x v reducesTo_S160x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_arg16 main_arg17 main_arg18 main_v13 main_v16
-- ==== Kernel.lean ====
abbrev S50000x64 : Shape := ⟨2, ![50000, 64]⟩
abbrev S2x400000 : Shape := ⟨2, ![2, 400000]⟩
abbrev S400000x32 : Shape := ⟨2, ![400000, 32]⟩
abbrev S160x128 : Shape := ⟨2, ![160, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S400000x64 : Shape := ⟨2, ![400000, 64]⟩
abbrev S64x128 : Shape := ⟨2, ![64, 128]⟩
abbrev S32x128 : Shape := ⟨2, ![32, 128]⟩
abbrev S4000x64 : Shape := ⟨2, ![4000, 64]⟩
abbrev S4000x32 : Shape := ⟨2, ![4000, 32]⟩
abbrev S4000x128 : Shape := ⟨2, ![4000, 128]⟩
abbrev S1x128 : Shape := ⟨2, ![1, 128]⟩
abbrev S1x64 : Shape := ⟨2, ![1, 64]⟩
abbrev S4000 : Shape := ⟨1, ![4000]⟩
abbrev S4000x1 : Shape := ⟨2, ![4000, 1]⟩
abbrev S5000x64 : Shape := ⟨2, ![5000, 64]⟩
abbrev S5000x128 : Shape := ⟨2, ![5000, 128]⟩
abbrev S5000 : Shape := ⟨1, ![5000]⟩
abbrev S5000x1 : Shape := ⟨2, ![5000, 1]⟩

abbrev nBuf : Space → Nat
  | .hbm => 52
  | .vmem => 33
  | .smem => 0
  | _ => 0

abbrev bufTy : (tb : Table) → Fin (tcTables nBuf tb) → BufTy
  | .hbm, ⟨0, _⟩ => ⟨S50000x64, .f32⟩
  | .hbm, ⟨1, _⟩ => ⟨S2x400000, .i32⟩
  | .hbm, ⟨2, _⟩ => ⟨S400000x32, .f32⟩
  | .hbm, ⟨3, _⟩ => ⟨S160x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S128x64, .f32⟩
  | .hbm, ⟨16, _⟩ => ⟨S64, .f32⟩
  | .hbm, ⟨17, _⟩ => ⟨S64, .f32⟩
  | .hbm, ⟨18, _⟩ => ⟨S64, .f32⟩
  | .hbm, ⟨19, _⟩ => ⟨S1x400000, .i32⟩
  | .hbm, ⟨20, _⟩ => ⟨S400000, .i32⟩
  | .hbm, ⟨21, _⟩ => ⟨S1x400000, .i32⟩
  | .hbm, ⟨22, _⟩ => ⟨S400000, .i32⟩
  | .hbm, ⟨23, _⟩ => ⟨S_, .i32⟩
  | .hbm, ⟨24, _⟩ => ⟨S400000, .i32⟩
  | .hbm, ⟨25, _⟩ => ⟨S400000, .i1⟩
  | .hbm, ⟨26, _⟩ => ⟨S_, .i32⟩
  | .hbm, ⟨27, _⟩ => ⟨S400000, .i32⟩
  | .hbm, ⟨28, _⟩ => ⟨S400000, .i32⟩
  | .hbm, ⟨29, _⟩ => ⟨S400000, .i32⟩
  | .hbm, ⟨30, _⟩ => ⟨S400000x1, .i32⟩
  | .hbm, ⟨31, _⟩ => ⟨S400000x64, .f32⟩
  | .hbm, ⟨32, _⟩ => ⟨S_, .i32⟩
  | .hbm, ⟨33, _⟩ => ⟨S400000, .i32⟩
  | .hbm, ⟨34, _⟩ => ⟨S400000, .i1⟩
  | .hbm, ⟨35, _⟩ => ⟨S_, .i32⟩
  | .hbm, ⟨36, _⟩ => ⟨S400000, .i32⟩
  | .hbm, ⟨37, _⟩ => ⟨S400000, .i32⟩
  | .hbm, ⟨38, _⟩ => ⟨S400000, .i32⟩
  | .hbm, ⟨39, _⟩ => ⟨S400000x1, .i32⟩
  | .hbm, ⟨40, _⟩ => ⟨S400000x64, .f32⟩
  | .hbm, ⟨41, _⟩ => ⟨S64x128, .f32⟩
  | .hbm, ⟨42, _⟩ => ⟨S64x128, .f32⟩
  | .hbm, ⟨43, _⟩ => ⟨S32x128, .f32⟩
  | .hbm, ⟨44, _⟩ => ⟨S400000x64, .f32⟩
  | .hbm, ⟨45, _⟩ => ⟨S_, .f32⟩
  | .hbm, ⟨46, _⟩ => ⟨S50000x64, .f32⟩
  | .hbm, ⟨47, _⟩ => ⟨S400000x1, .i32⟩
  | .hbm, ⟨48, _⟩ => ⟨S50000x64, .f32⟩
  | .hbm, ⟨49, _⟩ => ⟨S64x128, .f32⟩
  | .hbm, ⟨50, _⟩ => ⟨S64x128, .f32⟩
  | .hbm, ⟨51, _⟩ => ⟨S50000x64, .f32⟩
  | .local _ .vmem, ⟨0, _⟩ => ⟨S4000x64, .f32⟩
  | .local _ .vmem, ⟨1, _⟩ => ⟨S4000x64, .f32⟩
  | .local _ .vmem, ⟨2, _⟩ => ⟨S4000x64, .f32⟩
  | .local _ .vmem, ⟨3, _⟩ => ⟨S4000x64, .f32⟩
  | .local _ .vmem, ⟨4, _⟩ => ⟨S4000x32, .f32⟩
  | .local _ .vmem, ⟨5, _⟩ => ⟨S4000x32, .f32⟩
  | .local _ .vmem, ⟨6, _⟩ => ⟨S64x128, .f32⟩
  | .local _ .vmem, ⟨7, _⟩ => ⟨S64x128, .f32⟩
  | .local _ .vmem, ⟨8, _⟩ => ⟨S32x128, .f32⟩
  | .local _ .vmem, ⟨9, _⟩ => ⟨S128, .f32⟩
  | .local _ .vmem, ⟨10, _⟩ => ⟨S128x128, .f32⟩
  | .local _ .vmem, ⟨11, _⟩ => ⟨S128, .f32⟩
  | .local _ .vmem, ⟨12, _⟩ => ⟨S128x64, .f32⟩
  | .local _ .vmem, ⟨13, _⟩ => ⟨S64, .f32⟩
  | .local _ .vmem, ⟨14, _⟩ => ⟨S64, .f32⟩
  | .local _ .vmem, ⟨15, _⟩ => ⟨S64, .f32⟩
  | .local _ .vmem, ⟨16, _⟩ => ⟨S4000x64, .f32⟩
  | .local _ .vmem, ⟨17, _⟩ => ⟨S4000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S64x128, .f32⟩
  | .local _ .vmem, ⟨23, _⟩ => ⟨S64x128, .f32⟩
  | .local _ .vmem, ⟨24, _⟩ => ⟨S128, .f32⟩
  | .local _ .vmem, ⟨25, _⟩ => ⟨S128x128, .f32⟩
  | .local _ .vmem, ⟨26, _⟩ => ⟨S128, .f32⟩
  | .local _ .vmem, ⟨27, _⟩ => ⟨S128x64, .f32⟩
  | .local _ .vmem, ⟨28, _⟩ => ⟨S64, .f32⟩
  | .local _ .vmem, ⟨29, _⟩ => ⟨S64, .f32⟩
  | .local _ .vmem, ⟨30, _⟩ => ⟨S64, .f32⟩
  | .local _ .vmem, ⟨31, _⟩ => ⟨S5000x64, .f32⟩
  | .local _ .vmem, ⟨32, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_v5 : Ref sig .tc := ⟨.hbm, 25, rfl⟩
abbrev main_c_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_c_1 : Ref sig .tc := ⟨.hbm, 32, rfl⟩
abbrev main_v11 : Ref sig .tc := ⟨.hbm, 33, rfl⟩
abbrev main_v12 : Ref sig .tc := ⟨.hbm, 34, rfl⟩
abbrev main_c_2 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_cst : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg3_0 : Ref sig .tc := ⟨.vmem, 23, rfl⟩
abbrev cc1_stg4_0 : Ref sig .tc := ⟨.vmem, 24, rfl⟩
abbrev cc1_stg5_0 : Ref sig .tc := ⟨.vmem, 25, rfl⟩
abbrev cc1_stg6_0 : Ref sig .tc := ⟨.vmem, 26, rfl⟩
abbrev cc1_stg7_0 : Ref sig .tc := ⟨.vmem, 27, rfl⟩
abbrev cc1_stg8_0 : Ref sig .tc := ⟨.vmem, 28, rfl⟩
abbrev cc1_stg9_0 : Ref sig .tc := ⟨.vmem, 29, rfl⟩
abbrev cc1_stg10_0 : Ref sig .tc := ⟨.vmem, 30, rfl⟩
abbrev cc1_stg11_0 : Ref sig .tc := ⟨.vmem, 31, rfl⟩
abbrev cc1_stg11_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem3_0 : DmaSem sig := 23
abbrev cc1_sem4_0 : DmaSem sig := 24
abbrev cc1_sem5_0 : DmaSem sig := 25
abbrev cc1_sem6_0 : DmaSem sig := 26
abbrev cc1_sem7_0 : DmaSem sig := 27
abbrev cc1_sem8_0 : DmaSem sig := 28
abbrev cc1_sem9_0 : DmaSem sig := 29
abbrev cc1_sem10_0 : DmaSem sig := 30
abbrev cc1_sem11_0 : DmaSem sig := 31
abbrev cc1_sem11_1 : DmaSem sig := 32

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S4000x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_10 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S64 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S5000x64 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  slices_S160x128_S64x128_0_0 : S160x128.Slices ![0, 0] S64x128
  slices_S160x128_S64x128_64_0 : S160x128.Slices ![64, 0] S64x128
  slices_S160x128_S32x128_128_0 : S160x128.Slices ![128, 0] S32x128
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  bitsLt_bf16_f32 : FTy.bits .bf16 < FTy.bits .f32
  inb_S4000x32_S4000x32_0_0 : ∀ a, (![0, 0] : Fin 2 → Nat) a + S4000x32.size a ≤ S4000x32.size a
  h_S4000x32 : 0 < S4000x32.numel
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  inb_S128x128_S128x128_0_0 : ∀ a, (![0, 0] : Fin 2 → Nat) a + S128x128.size a ≤ S128x128.size a
  h_S128x128 : 0 < S128x128.numel
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S4000x64 : S1x64.Broadcasts S4000x64
  reduces_S4000x64_S4000 : S4000x64.Reduces [1] S4000
  shapeCasts_S4000_S4000x1 : S4000.ShapeCasts S4000x1
  broadcasts_S4000x1_S4000x64 : S4000x1.Broadcasts S4000x64
  bcast_S_S50000x64 : S_.BroadcastsInDim S50000x64 (![] : Fin 0 → Fin S50000x64.rank)
  slices_S128x128_S64x128_0_0 : S128x128.Slices ![0, 0] S64x128
  slices_S128x128_S64x128_64_0 : S128x128.Slices ![64, 0] S64x128
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  broadcasts_S1x128_S5000x128 : S1x128.Broadcasts S5000x128
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  gather_S50000x64_S400000x1_S400000x64_1_0_n_n_0_1_164_wf : GatherDims.WF S50000x64 S400000x1 S400000x64 [1] [0] [] [0] [] 1 ![1, 64]
  dot_S4000x64_S64x128_S4000x128_1_0_0_1_n_n_wf : DotDims.WF S4000x64 S64x128 S4000x128 [1] [0] [0] [1] [] []
  dot_S4000x32_S32x128_S4000x128_1_0_0_1_n_n_wf : DotDims.WF S4000x32 S32x128 S4000x128 [1] [0] [0] [1] [] []
  dot_S4000x128_S128x128_S4000x128_1_0_0_1_n_n_wf : DotDims.WF S4000x128 S128x128 S4000x128 [1] [0] [0] [1] [] []
  dot_S4000x128_S128x64_S4000x64_1_0_0_1_n_n_wf : DotDims.WF S4000x128 S128x64 S4000x64 [1] [0] [0] [1] [] []
  scatter_S50000x64_S400000x1_S400000x64_1_0_0_1_wf : ScatterDims.WF S50000x64 S400000x1 S400000x64 [1] [0] [0] 1
  dot_S5000x64_S64x128_S5000x128_1_0_0_1_n_n_wf : DotDims.WF S5000x64 S64x128 S5000x128 [1] [0] [0] [1] [] []
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S400000x64.size a
  hwx0_0 : ∀ i : grid0.Coords, EltTy.bits .f32 = 32 ∨ (Rect.block (s := S400000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x64.size a ≤ S400000x64.size a
  hwx0_1 : ∀ i : grid0.Coords, EltTy.bits .f32 = 32 ∨ (Rect.block (s := S400000x64) S4000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x32.size a ≤ S400000x32.size a
  hwx0_2 : ∀ i : grid0.Coords, EltTy.bits .f32 = 32 ∨ (Rect.block (s := S400000x32) S4000x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x128.size a ≤ S32x128.size a
  hwx0_5 : ∀ i : grid0.Coords, EltTy.bits .f32 = 32 ∨ (Rect.block (s := S32x128) S32x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x64.size a ≤ S128x64.size a
  hwx0_9 : ∀ i : grid0.Coords, EltTy.bits .f32 = 32 ∨ (Rect.block (s := S128x64) S128x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64.size a ≤ S64.size a
  hwx0_10 : ∀ i : grid0.Coords, EltTy.bits .f32 = 32 ∨ (Rect.block (s := S64) S64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S64.size a ≤ S64.size a
  hwx0_11 : ∀ i : grid0.Coords, EltTy.bits .f32 = 32 ∨ (Rect.block (s := S64) S64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S64.size a ≤ S64.size a
  hwx0_12 : ∀ i : grid0.Coords, EltTy.bits .f32 = 32 ∨ (Rect.block (s := S64) S64.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S4000x64.size a ≤ S400000x64.size a
  hwx0_13 : ∀ i : grid0.Coords, EltTy.bits .f32 = 32 ∨ (Rect.block (s := S400000x64) S4000x64.size (cc0_transform_13 i) (hinb0_13 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S64x128.size a
  hwx1_2 : ∀ i : grid1.Coords, EltTy.bits .f32 = 32 ∨ (Rect.block (s := S64x128) S64x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x128.size a ≤ S64x128.size a
  hwx1_3 : ∀ i : grid1.Coords, EltTy.bits .f32 = 32 ∨ (Rect.block (s := S64x128) S64x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x64.size a ≤ S128x64.size a
  hwx1_7 : ∀ i : grid1.Coords, EltTy.bits .f32 = 32 ∨ (Rect.block (s := S128x64) S128x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S64.size a ≤ S64.size a
  hwx1_8 : ∀ i : grid1.Coords, EltTy.bits .f32 = 32 ∨ (Rect.block (s := S64) S64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S64.size a ≤ S64.size a
  hwx1_9 : ∀ i : grid1.Coords, EltTy.bits .f32 = 32 ∨ (Rect.block (s := S64) S64.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S64.size a ≤ S64.size a
  hwx1_10 : ∀ i : grid1.Coords, EltTy.bits .f32 = 32 ∨ (Rect.block (s := S64) S64.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S5000x64.size a ≤ S50000x64.size a
  hwx1_11 : ∀ i : grid1.Coords, EltTy.bits .f32 = 32 ∨ (Rect.block (s := S50000x64) S5000x64.size (cc1_transform_11 i) (hinb1_11 i)).WholeWords (EltTy.packing .f32)

variable [Facts₀]

def gather_S50000x64_S400000x1_S400000x64_1_0_n_n_0_1_164 : GatherDims S50000x64 S400000x1 S400000x64 where
  offsetDims := [1]
  collapsedSliceDims := [0]
  operandBatchingDims := []
  startIndicesBatchingDims := []
  startIndexMap := [0]
  indexVectorDim := 1
  sliceSizes := ![1, 64]
  wf := gather_S50000x64_S400000x1_S400000x64_1_0_n_n_0_1_164_wf
def dot_S4000x64_S64x128_S4000x128_1_0_0_1_n_n : DotDims S4000x64 S64x128 S4000x128 where
  lhsContracting := [1]
  rhsContracting := [0]
  lhsNonContracting := [0]
  rhsNonContracting := [1]
  lhsBatch := []
  rhsBatch := []
  wf := dot_S4000x64_S64x128_S4000x128_1_0_0_1_n_n_wf
def dot_S4000x32_S32x128_S4000x128_1_0_0_1_n_n : DotDims S4000x32 S32x128 S4000x128 where
  lhsContracting := [1]
  rhsContracting := [0]
  lhsNonContracting := [0]
  rhsNonContracting := [1]
  lhsBatch := []
  rhsBatch := []
  wf := dot_S4000x32_S32x128_S4000x128_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def scatter_S50000x64_S400000x1_S400000x64_1_0_0_1 : ScatterDims S50000x64 S400000x1 S400000x64 where
  updateWindowDims := [1]
  insertedWindowDims := [0]
  scatterDimsToOperandDims := [0]
  indexVectorDim := 1
  wf := scatter_S50000x64_S400000x1_S400000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v10) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S4000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4000x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S32x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg7) S128x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg8) S64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg9) S64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg10) S64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v21) S4000x64.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev win1_0 : Pipeline.Window sig grid1 :=
  Pipeline.Window.ofSpec (Memref.whole main_arg0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S64x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S64x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg12) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg13) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg14) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg15) S128x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg16) S64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg17) S64.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_arg18) S64.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v27) S5000x64.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x400000 : Shape := ⟨2, ![2, 400000]⟩
abbrev S400000x32 : Shape := ⟨2, ![400000, 32]⟩
abbrev S160x128 : Shape := ⟨2, ![160, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S400000x64 : Shape := ⟨2, ![400000, 64]⟩
abbrev S400000x160 : Shape := ⟨2, ![400000, 160]⟩
abbrev S400000x128 : Shape := ⟨2, ![400000, 128]⟩
abbrev S1x128 : Shape := ⟨2, ![1, 128]⟩
abbrev S1x64 : Shape := ⟨2, ![1, 64]⟩
abbrev S50000x128 : Shape := ⟨2, ![50000, 128]⟩
abbrev S50000 : Shape := ⟨1, ![50000]⟩
abbrev S50000x1 : Shape := ⟨2, ![50000, 1]⟩

abbrev nBuf : Space → Nat
  | .hbm => 142
  | .vmem => 0
  | .smem => 0
  | _ => 0

abbrev hbmTy0_0 (i : Nat) : BufTy := match i % 128 with
  | 0 => ⟨S50000x64, .f32⟩
  | 1 => ⟨S2x400000, .i32⟩
  | 2 => ⟨S400000x32, .f32⟩
  | 3 => ⟨S160x128, .f32⟩
  | 4 => ⟨S128, .f32⟩
  | 5 => ⟨S128x128, .f32⟩
  | 6 => ⟨S128, .f32⟩
  | 7 => ⟨S128x64, .f32⟩
  | 8 => ⟨S64, .f32⟩
  | 9 => ⟨S64, .f32⟩
  | 10 => ⟨S64, .f32⟩
  | 11 => ⟨S128x128, .f32⟩
  | 12 => ⟨S128, .f32⟩
  | 13 => ⟨S128x128, .f32⟩
  | 14 => ⟨S128, .f32⟩
  | 15 => ⟨S128x64, .f32⟩
  | 16 => ⟨S64, .f32⟩
  | 17 => ⟨S64, .f32⟩
  | 18 => ⟨S64, .f32⟩
  | 19 => ⟨S1x400000, .i32⟩
  | 20 => ⟨S400000, .i32⟩
  | 21 => ⟨S1x400000, .i32⟩
  | 22 => ⟨S400000, .i32⟩
  | 23 => ⟨S_, .i32⟩
  | 24 => ⟨S400000, .i32⟩
  | 25 => ⟨S400000, .i1⟩
  | 26 => ⟨S_, .i32⟩
  | 27 => ⟨S400000, .i32⟩
  | 28 => ⟨S400000, .i32⟩
  | 29 => ⟨S400000, .i32⟩
  | 30 => ⟨S400000x1, .i32⟩
  | 31 => ⟨S400000x64, .f32⟩
  | 32 => ⟨S_, .i32⟩
  | 33 => ⟨S400000, .i32⟩
  | 34 => ⟨S400000, .i1⟩
  | 35 => ⟨S_, .i32⟩
  | 36 => ⟨S400000, .i32⟩
  | 37 => ⟨S400000, .i32⟩
  | 38 => ⟨S400000, .i32⟩
  | 39 => ⟨S400000x1, .i32⟩
  | 40 => ⟨S400000x64, .f32⟩
  | 41 => ⟨S400000x160, .f32⟩
  | 42 => ⟨S400000x128, .f32⟩
  | 43 => ⟨S1x128, .f32⟩
  | 44 => ⟨S400000x128, .f32⟩
  | 45 => ⟨S400000x128, .f32⟩
  | 46 => ⟨S_, .f32⟩
  | 47 => ⟨S400000x128, .f32⟩
  | 48 => ⟨S400000x128, .f32⟩
  | 49 => ⟨S400000x128, .f32⟩
  | 50 => ⟨S1x128, .f32⟩
  | 51 => ⟨S400000x128, .f32⟩
  | 52 => ⟨S400000x128, .f32⟩
  | 53 => ⟨S_, .f32⟩
  | 54 => ⟨S400000x128, .f32⟩
  | 55 => ⟨S400000x128, .f32⟩
  | 56 => ⟨S400000x64, .f32⟩
  | 57 => ⟨S1x64, .f32⟩
  | 58 => ⟨S400000x64, .f32⟩
  | 59 => ⟨S400000x64, .f32⟩
  | 60 => ⟨S_, .f32⟩
  | 61 => ⟨S400000, .f32⟩
  | 62 => ⟨S400000x1, .f32⟩
  | 63 => ⟨S_, .f32⟩
  | 64 => ⟨S400000x1, .f32⟩
  | 65 => ⟨S400000x1, .f32⟩
  | 66 => ⟨S400000x64, .f32⟩
  | 67 => ⟨S400000x64, .f32⟩
  | 68 => ⟨S400000x64, .f32⟩
  | 69 => ⟨S_, .f32⟩
  | 70 => ⟨S400000, .f32⟩
  | 71 => ⟨S400000x1, .f32⟩
  | 72 => ⟨S_, .f32⟩
  | 73 => ⟨S400000x1, .f32⟩
  | 74 => ⟨S400000x1, .f32⟩
  | 75 => ⟨S400000x64, .f32⟩
  | 76 => ⟨S400000x64, .f32⟩
  | 77 => ⟨S_, .f32⟩
  | 78 => ⟨S400000x1, .f32⟩
  | 79 => ⟨S400000x1, .f32⟩
  | 80 => ⟨S400000x1, .f32⟩
  | 81 => ⟨S400000x64, .f32⟩
  | 82 => ⟨S400000x64, .f32⟩
  | 83 => ⟨S1x64, .f32⟩
  | 84 => ⟨S400000x64, .f32⟩
  | 85 => ⟨S400000x64, .f32⟩
  | 86 => ⟨S1x64, .f32⟩
  | 87 => ⟨S400000x64, .f32⟩
  | 88 => ⟨S400000x64, .f32⟩
  | 89 => ⟨S_, .f32⟩
  | 90 => ⟨S50000x64, .f32⟩
  | 91 => ⟨S400000x1, .i32⟩
  | 92 => ⟨S50000x64, .f32⟩
  | 93 => ⟨S50000x128, .f32⟩
  | 94 => ⟨S50000x128, .f32⟩
  | 95 => ⟨S1x128, .f32⟩
  | 96 => ⟨S50000x128, .f32⟩
  | 97 => ⟨S50000x128, .f32⟩
  | 98 => ⟨S_, .f32⟩
  | 99 => ⟨S50000x128, .f32⟩
  | 100 => ⟨S50000x128, .f32⟩
  | 101 => ⟨S50000x128, .f32⟩
  | 102 => ⟨S1x128, .f32⟩
  | 103 => ⟨S50000x128, .f32⟩
  | 104 => ⟨S50000x128, .f32⟩
  | 105 => ⟨S_, .f32⟩
  | 106 => ⟨S50000x128, .f32⟩
  | 107 => ⟨S50000x128, .f32⟩
  | 108 => ⟨S50000x64, .f32⟩
  | 109 => ⟨S1x64, .f32⟩
  | 110 => ⟨S50000x64, .f32⟩
  | 111 => ⟨S50000x64, .f32⟩
  | 112 => ⟨S_, .f32⟩
  | 113 => ⟨S50000, .f32⟩
  | 114 => ⟨S50000x1, .f32⟩
  | 115 => ⟨S_, .f32⟩
  | 116 => ⟨S50000x1, .f32⟩
  | 117 => ⟨S50000x1, .f32⟩
  | 118 => ⟨S50000x64, .f32⟩
  | 119 => ⟨S50000x64, .f32⟩
  | 120 => ⟨S50000x64, .f32⟩
  | 121 => ⟨S_, .f32⟩
  | 122 => ⟨S50000, .f32⟩
  | 123 => ⟨S50000x1, .f32⟩
  | 124 => ⟨S_, .f32⟩
  | 125 => ⟨S50000x1, .f32⟩
  | 126 => ⟨S50000x1, .f32⟩
  | 127 => ⟨S50000x64, .f32⟩
  | _ => ⟨S50000x64, .f32⟩

abbrev hbmTy0_1 (i : Nat) : BufTy := match i % 128 with
  | 0 => ⟨S50000x64, .f32⟩
  | 1 => ⟨S_, .f32⟩
  | 2 => ⟨S50000x1, .f32⟩
  | 3 => ⟨S50000x1, .f32⟩
  | 4 => ⟨S50000x1, .f32⟩
  | 5 => ⟨S50000x64, .f32⟩
  | 6 => ⟨S50000x64, .f32⟩
  | 7 => ⟨S1x64, .f32⟩
  | 8 => ⟨S50000x64, .f32⟩
  | 9 => ⟨S50000x64, .f32⟩
  | 10 => ⟨S1x64, .f32⟩
  | 11 => ⟨S50000x64, .f32⟩
  | 12 => ⟨S50000x64, .f32⟩
  | 13 => ⟨S50000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_v5 : Ref sig .tc := ⟨.hbm, 25, rfl⟩
abbrev main_c_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_c_1 : Ref sig .tc := ⟨.hbm, 32, rfl⟩
abbrev main_v11 : Ref sig .tc := ⟨.hbm, 33, rfl⟩
abbrev main_v12 : Ref sig .tc := ⟨.hbm, 34, rfl⟩
abbrev main_c_2 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_call0_cst : Ref sig .tc := ⟨.hbm, 46, rfl⟩
abbrev main_call0_v0 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_call1_cst : Ref sig .tc := ⟨.hbm, 53, rfl⟩
abbrev main_call1_v0 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_cst : Ref sig .tc := ⟨.hbm, 60, rfl⟩
abbrev main_v33 : Ref sig .tc := ⟨.hbm, 61, rfl⟩
abbrev main_v34 : Ref sig .tc := ⟨.hbm, 62, rfl⟩
abbrev main_cst_3 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_cst_4 : Ref sig .tc := ⟨.hbm, 69, rfl⟩
abbrev main_v40 : Ref sig .tc := ⟨.hbm, 70, rfl⟩
abbrev main_v41 : Ref sig .tc := ⟨.hbm, 71, rfl⟩
abbrev main_cst_5 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_cst_6 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_cst_7 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_call2_cst : Ref sig .tc := ⟨.hbm, 98, rfl⟩
abbrev main_call2_v0 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_call3_cst : Ref sig .tc := ⟨.hbm, 105, rfl⟩
abbrev main_call3_v0 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_cst_8 : Ref sig .tc := ⟨.hbm, 112, rfl⟩
abbrev main_v75 : Ref sig .tc := ⟨.hbm, 113, rfl⟩
abbrev main_v76 : Ref sig .tc := ⟨.hbm, 114, rfl⟩
abbrev main_cst_9 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_cst_10 : Ref sig .tc := ⟨.hbm, 121, rfl⟩
abbrev main_v82 : Ref sig .tc := ⟨.hbm, 122, rfl⟩
abbrev main_v83 : Ref sig .tc := ⟨.hbm, 123, rfl⟩
abbrev main_cst_11 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_cst_12 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  concatenates_S400000x64_S400000x64_S400000x32_S400000x160_d1 : Shape.Concatenates [S400000x64, S400000x64, S400000x32] S400000x160 1
  bcast_S128_S1x128_1 : S128.BroadcastsInDim S1x128 (![1] : Fin 1 → Fin S1x128.rank)
  bcast_S1x128_S400000x128_0_1 : S1x128.BroadcastsInDim S400000x128 (![0, 1] : Fin 2 → Fin S400000x128.rank)
  bcast_S_S400000x128 : S_.BroadcastsInDim S400000x128 (![] : Fin 0 → Fin S400000x128.rank)
  bcast_S64_S1x64_1 : S64.BroadcastsInDim S1x64 (![1] : Fin 1 → Fin S1x64.rank)
  bcast_S1x64_S400000x64_0_1 : S1x64.BroadcastsInDim S400000x64 (![0, 1] : Fin 2 → Fin S400000x64.rank)
  reducesTo_S400000x64_S400000_d1 : S400000x64.ReducesTo [1] S400000
  h_S_ : 0 < S_.numel
  bcast_S_S400000x1 : S_.BroadcastsInDim S400000x1 (![] : Fin 0 → Fin S400000x1.rank)
  bcast_S400000x1_S400000x64_0_1 : S400000x1.BroadcastsInDim S400000x64 (![0, 1] : Fin 2 → Fin S400000x64.rank)
  bcast_S_S50000x64 : S_.BroadcastsInDim S50000x64 (![] : Fin 0 → Fin S50000x64.rank)
  concatenates_S50000x64_S50000x64_S50000x128_d1 : Shape.Concatenates [S50000x64, S50000x64] S50000x128 1
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S1x64_S50000x64_0_1 : S1x64.BroadcastsInDim S50000x64 (![0, 1] : Fin 2 → Fin S50000x64.rank)
  reducesTo_S50000x64_S50000_d1 : S50000x64.ReducesTo [1] S50000
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  gather_S50000x64_S400000x1_S400000x64_1_0_n_n_0_1_164_wf : GatherDims.WF S50000x64 S400000x1 S400000x64 [1] [0] [] [0] [] 1 ![1, 64]
  dot_S400000x160_S160x128_S400000x128_1_0_0_1_n_n_wf : DotDims.WF S400000x160 S160x128 S400000x128 [1] [0] [0] [1] [] []
  dot_S400000x128_S128x128_S400000x128_1_0_0_1_n_n_wf : DotDims.WF S400000x128 S128x128 S400000x128 [1] [0] [0] [1] [] []
  dot_S400000x128_S128x64_S400000x64_1_0_0_1_n_n_wf : DotDims.WF S400000x128 S128x64 S400000x64 [1] [0] [0] [1] [] []
  scatter_S50000x64_S400000x1_S400000x64_1_0_0_1_wf : ScatterDims.WF S50000x64 S400000x1 S400000x64 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x64_S400000x1_S400000x64_1_0_n_n_0_1_164 : GatherDims S50000x64 S400000x1 S400000x64 where
  offsetDims := [1]
  collapsedSliceDims := [0]
  operandBatchingDims := []
  startIndicesBatchingDims := []
  startIndexMap := [0]
  indexVectorDim := 1
  sliceSizes := ![1, 64]
  wf := gather_S50000x64_S400000x1_S400000x64_1_0_n_n_0_1_164_wf
def dot_S400000x160_S160x128_S400000x128_1_0_0_1_n_n : DotDims S400000x160 S160x128 S400000x128 where
  lhsContracting := [1]
  rhsContracting := [0]
  lhsNonContracting := [0]
  rhsNonContracting := [1]
  lhsBatch := []
  rhsBatch := []
  wf := dot_S400000x160_S160x128_S400000x128_1_0_0_1_n_n_wf
def dot_S400000x128_S128x128_S400000x128_1_0_0_1_n_n : DotDims S400000x128 S128x128 S400000x128 where
  lhsContracting := [1]
  rhsContracting := [0]
  lhsNonContracting := [0]
  rhsNonContracting := [1]
  lhsBatch := []
  rhsBatch := []
  wf := dot_S400000x128_S128x128_S400000x128_1_0_0_1_n_n_wf
def dot_S400000x128_S128x64_S400000x64_1_0_0_1_n_n : DotDims S400000x128 S128x64 S400000x64 where
  lhsContracting := [1]
  rhsContracting := [0]
  lhsNonContracting := [0]
  rhsNonContracting := [1]
  lhsBatch := []
  rhsBatch := []
  wf := dot_S400000x128_S128x64_S400000x64_1_0_0_1_n_n_wf
def scatter_S50000x64_S400000x1_S400000x64_1_0_0_1 : ScatterDims S50000x64 S400000x1 S400000x64 where
  updateWindowDims := [1]
  insertedWindowDims := [0]
  scatterDimsToOperandDims := [0]
  indexVectorDim := 1
  wf := scatter_S50000x64_S400000x1_S400000x64_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.Spec.lean ====
/-
  The mathematics both programs compute, row by row, on the extended reals.

  A node update of a message-passing layer: every edge e carries the row
  msg(e) = LN(W3ᵀ relu(W2ᵀ relu(W1ᵀ [h(src e); h(dst e); attr(e)] + b1) + b2) + b3), the rows of the edges
  that end in a node are added up, and the node's new row is h + LN(U3ᵀ relu(U2ᵀ relu(U1ᵀ [h; agg] + c1) + c2) + c3).
  LN normalises a row of 64 entries: (x − mean) · rsqrt(mean of squared deviations + ε) · g + β.

  Everything here is stated for one row (functions on `Fin n`), then lifted to arrays of any number R of rows:
  entry (p, j) of the lifted array depends on row p of the row-indexed operands only. That row-locality is what lets a
  block of rows computed separately be a block of the whole array's result.
-/
import Idealize.ShloMosaic.PureOps.Ideal.Laws
import Idealize.ShloMosaic.Lib.ValueIdx

noncomputable section

namespace EdgeConv

open Idealize.ShloMosaic Idealize.ShloMosaic.ValueIdx

/-- A two-axis array of extended reals with R rows and C columns, and a one-axis array with C entries. -/
abbrev Arr2 (R C : ℕ) : Type := (⟨2, ![R, C]⟩ : Shape).Idx → EReal
abbrev Arr1 (C : ℕ) : Type := (⟨1, ![C]⟩ : Shape).Idx → EReal

/-- max(x, 0), the zero spelt as the program spells it. -/
def relu (x : EReal) : EReal := max x (Ideal.ofBits .f32 0x00000000#32)

/-- One affine layer at output column q: Σₖ x(k)·W(k, q) + b(q). -/
def dense {K C : ℕ} (x : Fin K → EReal) (W : Arr2 K C) (b : Arr1 C) (q : Fin C) : EReal :=
  (∑ k : Fin K, x k * W (ix2 k q)) + b (ix1 q)

/-- The mean of a row of 64 entries: the sum divided by 64. -/
def mean64 (x : Fin 64 → EReal) : EReal := Ideal.div (∑ k : Fin 64, x k) (Ideal.ofBits .f32 0x42800000#32)

/-- Layer normalisation of a row of 64 entries, at entry j. -/
def layerNorm (x : Fin 64 → EReal) (g β : Arr1 64) (j : Fin 64) : EReal :=
  (x j - mean64 x) * Ideal.rsqrt (mean64 (fun k => (x k - mean64 x) * (x k - mean64 x)) + Ideal.ofBits .f32 0x3727C5AC#32)
    * g (ix1 j) + β (ix1 j)

/-- Layers two and three and the normalisation, from the first layer's row `x1` before its relu. -/
def tail (x1 : Fin 128 → EReal) (W2 : Arr2 128 128) (b2 : Arr1 128) (W3 : Arr2 128 64) (b3 g β : Arr1 64) (j : Fin 64) : EReal :=
  layerNorm (dense (fun k => relu (dense (fun k' => relu (x1 k')) W2 b2 k)) W3 b3) g β j

/-- The message network's first layer on the three parts of its input row, each against its own rows of the weight. -/
def msgPre (a b : Fin 64 → EReal) (c : Fin 32 → EReal) (Wa Wb : Arr2 64 128) (Wc : Arr2 32 128) (b1 : Arr1 128) (q : Fin 128) : EReal :=
  (∑ k : Fin 64, a k * Wa (ix2 k q)) + (∑ k : Fin 64, b k * Wb (ix2 k q)) + (∑ k : Fin 32, c k * Wc (ix2 k q)) + b1 (ix1 q)

/-- The update network's first layer on the two parts of its input row. -/
def updPre (a b : Fin 64 → EReal) (Wa Wb : Arr2 64 128) (b1 : Arr1 128) (q : Fin 128) : EReal :=
  (∑ k : Fin 64, a k * Wa (ix2 k q)) + (∑ k : Fin 64, b k * Wb (ix2 k q)) + b1 (ix1 q)

/-- The messages of R edges: row p from row p of the two gathered node arrays and of the edge attributes. -/
def msgF (R : ℕ) (hs hd : Arr2 R 64) (ea : Arr2 R 32) (Wa Wb : Arr2 64 128) (Wc : Arr2 32 128) (b1 : Arr1 128)
    (W2 : Arr2 128 128) (b2 : Arr1 128) (W3 : Arr2 128 64) (b3 g β : Arr1 64) : Arr2 R 64 :=
  fun i => tail (msgPre (fun k => hs (ix2 (i 0) k)) (fun k => hd (ix2 (i 0) k)) (fun k => ea (ix2 (i 0) k)) Wa Wb Wc b1) W2 b2 W3 b3 g β (i 1)

/-- The new rows of R nodes: row p from row p of the node array and of the aggregated messages, plus the node's row. -/
def updF (R : ℕ) (h agg : Arr2 R 64) (Wa Wb : Arr2 64 128) (b1 : Arr1 128)
    (W2 : Arr2 128 128) (b2 : Arr1 128) (W3 : Arr2 128 64) (b3 g β : Arr1 64) : Arr2 R 64 :=
  fun i => tail (updPre (fun k => h (ix2 (i 0) k)) (fun k => agg (ix2 (i 0) k)) Wa Wb b1) W2 b2 W3 b3 g β (i 1) + h i

theorem msgF_apply (R : ℕ) (hs hd : Arr2 R 64) (ea : Arr2 R 32) (Wa Wb : Arr2 64 128) (Wc : Arr2 32 128) (b1 : Arr1 128)
    (W2 : Arr2 128 128) (b2 : Arr1 128) (W3 : Arr2 128 64) (b3 g β : Arr1 64) (p : Fin R) (j : Fin 64) :
    msgF R hs hd ea Wa Wb Wc b1 W2 b2 W3 b3 g β (ix2 p j)
      = tail (msgPre (fun k => hs (ix2 p k)) (fun k => hd (ix2 p k)) (fun k => ea (ix2 p k)) Wa Wb Wc b1) W2 b2 W3 b3 g β j := rfl

theorem updF_apply (R : ℕ) (h agg : Arr2 R 64) (Wa Wb : Arr2 64 128) (b1 : Arr1 128)
    (W2 : Arr2 128 128) (b2 : Arr1 128) (W3 : Arr2 128 64) (b3 g β : Arr1 64) (p : Fin R) (j : Fin 64) :
    updF R h agg Wa Wb b1 W2 b2 W3 b3 g β (ix2 p j)
      = tail (updPre (fun k => h (ix2 p k)) (fun k => agg (ix2 p k)) Wa Wb b1) W2 b2 W3 b3 g β j + h (ix2 p j) := rfl

/-- Rows o, o+1, …, o+n−1 of a two-axis array. -/
def rowsFrom {K C : ℕ} (n o : ℕ) (h : o + n ≤ K) (W : Arr2 K C) : Arr2 n C :=
  fun i => W (ix2 ⟨o + (i 0).val, by have := idx2_lt0 i; omega⟩ (i 1))

theorem rowsFrom_apply {K C : ℕ} (n o : ℕ) (h : o + n ≤ K) (W : Arr2 K C) (k : Fin n) (q : Fin C) :
    rowsFrom n o h W (ix2 k q) = W (ix2 ⟨o + k.val, by have := k.isLt; omega⟩ q) := rfl

/-- A sum over 160 = 64 + 64 + 32 indices, part by part. -/
theorem sum_split3 (f : Fin 160 → EReal) :
    ∑ k : Fin 160, f k
      = (∑ k : Fin 64, f ⟨k.val, by have := k.isLt; omega⟩) + (∑ k : Fin 64, f ⟨64 + k.val, by have := k.isLt; omega⟩)
        + ∑ k : Fin 32, f ⟨128 + k.val, by have := k.isLt; omega⟩ := by
  have h1 := Fin.sum_univ_add (a := 128) (b := 32) f
  have h2 := Fin.sum_univ_add (a := 64) (b := 64) (fun i : Fin 128 => f (Fin.castAdd 32 i))
  rw [h1, h2]
  rfl

/-- A sum over 128 = 64 + 64 indices, part by part. -/
theorem sum_split2 (f : Fin 128 → EReal) :
    ∑ k : Fin 128, f k
      = (∑ k : Fin 64, f ⟨k.val, by have := k.isLt; omega⟩) + ∑ k : Fin 64, f ⟨64 + k.val, by have := k.isLt; omega⟩ := by
  rw [Fin.sum_univ_add (a := 64) (b := 64) f]
  rfl

end EdgeConv

end
-- ==== Proof.Whole.lean ====
/-
  The two results of the layer as functions of the argument arrays, in the kernel program's own spelling of the
  index plumbing: the edge list's two rows as flat vectors of node numbers, a negative number counted from the
  end, the gather of the nodes' rows, the messages, their sum into the end nodes, and the nodes' new rows.
  The gather and the scatter-add are carried as they are printed; what is opened is only the row-wise arithmetic
  (`EdgeConv.msgF`, `EdgeConv.updF`).
-/
import proofs.«149934_j74174085202606_1_alg».proof.KernelIdeal
import proofs.«149934_j74174085202606_1_alg».proof.Proof.Gen.KernelIdeal
import proofs.«149934_j74174085202606_1_alg».proof.Proof.Spec

noncomputable section

namespace Cert.KernelIdeal.Whole

open Cert.KernelIdeal Idealize.ShloMosaic

variable [Facts]
open Facts₀ Facts

/-- Row 0 of the edge list (the edges' start nodes) as a flat vector. -/
def startNodes (a1 : IVec S2x400000 32) : IVec S400000 32 :=
  shapeCast _ (extractStridedSlice S1x400000 ![0, 0] a1 slices_S2x400000_S1x400000_0_0) shapeCasts_S1x400000_S400000

/-- Row 1 of the edge list (the edges' end nodes) as a flat vector. -/
def endNodes (a1 : IVec S2x400000 32) : IVec S400000 32 :=
  shapeCast _ (extractStridedSlice S1x400000 ![1, 0] a1 slices_S2x400000_S1x400000_1_0) shapeCasts_S1x400000_S400000

/-- A negative node number n stands for n + 50000. -/
def wrap (v : IVec S400000 32) : IVec S400000 32 :=
  select (cmpi .slt v (broadcastInDim S400000 ![] bcast_S_S400000 (constantI S_ 32 0#32)))
    (addi v (broadcastInDim S400000 ![] bcast_S_S400000 (constantI S_ 32 50000#32))) v

/-- A vector of node numbers as a one-column index array. -/
def asColumn (v : IVec S400000 32) : IVec S400000x1 32 := broadcastInDim S400000x1 ![0] bcast_S400000_S400000x1_0 v

/-- For every edge, the row of the node array that the node number names. -/
def rowsOf (a0 : FVec Ideal S50000x64 .f32) (v : IVec S400000 32) : FVec Ideal S400000x64 .f32 :=
  Host.gather gather_S50000x64_S400000x1_S400000x64_1_0_n_n_0_1_164 a0 (asColumn (wrap v))

/-- The edges' messages. -/
def msg (a0 : FVec Ideal S50000x64 .f32) (a1 : IVec S2x400000 32) (a2 : FVec Ideal S400000x32 .f32) (a3 : FVec Ideal S160x128 .f32)
    (a4 : FVec Ideal S128 .f32) (a5 : FVec Ideal S128x128 .f32) (a6 : FVec Ideal S128 .f32) (a7 : FVec Ideal S128x64 .f32)
    (a8 a9 a10 : FVec Ideal S64 .f32) : FVec Ideal S400000x64 .f32 :=
  EdgeConv.msgF 400000 (rowsOf a0 (startNodes a1)) (rowsOf a0 (endNodes a1)) a2
    (EdgeConv.rowsFrom 64 0 (by omega) a3) (EdgeConv.rowsFrom 64 64 (by omega) a3) (EdgeConv.rowsFrom 32 128 (by omega) a3)
    a4 a5 a6 a7 a8 a9 a10

/-- The messages added up into their end nodes, from zero. -/
def agg (a1 : IVec S2x400000 32) (u : FVec Ideal S400000x64 .f32) : FVec Ideal S50000x64 .f32 :=
  Host.scatterAdd scatter_S50000x64_S400000x1_S400000x64_1_0_0_1
    (broadcastInDim S50000x64 ![] bcast_S_S50000x64 (constant S_ .f32 0x00000000#32)) (asColumn (endNodes a1)) u

/-- The nodes' new rows. -/
def hNew (a0 : FVec Ideal S50000x64 .f32) (a1 : IVec S2x400000 32) (a2 : FVec Ideal S400000x32 .f32) (a3 : FVec Ideal S160x128 .f32)
    (a4 : FVec Ideal S128 .f32) (a5 : FVec Ideal S128x128 .f32) (a6 : FVec Ideal S128 .f32) (a7 : FVec Ideal S128x64 .f32)
    (a8 a9 a10 : FVec Ideal S64 .f32) (a11 : FVec Ideal S128x128 .f32) (a12 : FVec Ideal S128 .f32) (a13 : FVec Ideal S128x128 .f32)
    (a14 : FVec Ideal S128 .f32) (a15 : FVec Ideal S128x64 .f32) (a16 a17 a18 : FVec Ideal S64 .f32) : FVec Ideal S50000x64 .f32 :=
  EdgeConv.updF 50000 a0 (agg a1 (msg a0 a1 a2 a3 a4 a5 a6 a7 a8 a9 a10))
    (EdgeConv.rowsFrom 64 0 (by omega) a11) (EdgeConv.rowsFrom 64 64 (by omega) a11) a12 a13 a14 a15 a16 a17 a18

end Cert.KernelIdeal.Whole

end
-- ==== Proof.KernelValue.lean ====
/-
  The two result arrays of the kernel program after its run, as functions of the argument arrays.

  @main is four stretches: host operations (the edge list's rows, the two gathers, the three row bands of the
  first weight), the message network's region over blocks of 4000 edges, host operations (the scatter-add of the
  messages into their end nodes, the two row bands of the update network's first weight), and the update network's
  region over blocks of 5000 nodes. The contents at each boundary are a fold through these stretches; here the
  fold is walked from the end back to the launch memory. What each region leaves in its output array is taken as
  a hypothesis of the shape "the row-wise function of the arrays the region found" (`MsgRegion`, `UpdRegion`),
  proved region by region elsewhere.
-/
import proofs.«149934_j74174085202606_1_alg».proof.Proof.KernelRun
import proofs.«149934_j74174085202606_1_alg».proof.Proof.Whole
import Idealize.ShloMosaic.Lib.ValueLayout

set_option maxRecDepth 16384

noncomputable section

namespace Cert.KernelIdeal.WholeValue

open Cert.KernelIdeal Cert.KernelIdeal.Gen Idealize.ShloMosaic Idealize.ShloMosaic.TcCoe Idealize.ShloMosaic.ValueIdx Idealize.SL.Sem
open Idealize.ShloMosaic.StableHlo

variable [Facts]
open Facts₀ Facts

/-- What the message region leaves in its output array, whatever contents `V` it found. -/
def MsgRegion : Prop :=
  ∀ (V : (c : Dev nD) → (b : Ref sig .tc) → Buf (Elt Ideal) ((c : Thread nD τ).loc b)) (c : Dev nD),
    (Gen.dat0 (F := Ideal) V c).arrAt 13 cfg0.N
      = EdgeConv.msgF 400000 (V c main_v10) (V c main_v17) (V c main_arg2) (V c main_v18) (V c main_v19) (V c main_v20)
          (V c main_arg4) (V c main_arg5) (V c main_arg6) (V c main_arg7) (V c main_arg8) (V c main_arg9) (V c main_arg10)

/-- What the update region leaves in its output array, whatever contents `V` it found. -/
def UpdRegion : Prop :=
  ∀ (V : (c : Dev nD) → (b : Ref sig .tc) → Buf (Elt Ideal) ((c : Thread nD τ).loc b)) (c : Dev nD),
    (Gen.dat1 (F := Ideal) V c).arrAt 11 cfg1.N
      = EdgeConv.updF 50000 (V c main_arg0) (V c main_v24) (V c main_v25) (V c main_v26)
          (V c main_arg12) (V c main_arg13) (V c main_arg14) (V c main_arg15) (V c main_arg16) (V c main_arg17) (V c main_arg18)

/-- A band of n rows cut from row o on is `EdgeConv.rowsFrom`. -/
theorem slice_rows {K C n : ℕ} (o : ℕ) (X : (⟨2, ![K, C]⟩ : Shape).Idx → EReal)
    (h : (⟨2, ![K, C]⟩ : Shape).Slices ![o, 0] ⟨2, ![n, C]⟩) (hn : o + n ≤ K) :
    extractStridedSlice ⟨2, ![n, C]⟩ ![o, 0] X h = EdgeConv.rowsFrom n o hn X := by
  funext i
  obtain ⟨p, q, rfl⟩ : ∃ (p : Fin n) (q : Fin C), i = ix2 p q := ⟨i 0, i 1, eq_ix2 i⟩
  rw [slice2_axis0_eq, EdgeConv.rowsFrom_apply]

variable (m : (ℓ : Loc nD τ sig) → Buf (Elt Ideal) ℓ) (ρ : Dev nD → PrngReg) (c : Dev nD)

/-- Argument k's launch contents on core c. -/
abbrev arg (k : Ref sig .tc) : Buf (Elt Ideal) ((c : Thread nD τ).loc k) := m ((c : Thread nD τ).loc k)

/-! ## The first host stretch -/

theorem V1_v10 : (V1 m ρ c main_v10 : S400000x64.Idx → EReal) = Whole.rowsOf (arg m c main_arg0) (Whole.startNodes (arg m c main_arg1)) := by
  show StableHlo.after hostOps0 (W0 m ρ c) (Proc.devRef .tc main_v10) = _
  after_results <;> rfl

set_option maxHeartbeats 2000000 in
theorem V1_v17 : (V1 m ρ c main_v17 : S400000x64.Idx → EReal) = Whole.rowsOf (arg m c main_arg0) (Whole.endNodes (arg m c main_arg1)) := by
  show StableHlo.after hostOps0 (W0 m ρ c) (Proc.devRef .tc main_v17) = _
  after_results <;> rfl

theorem V1_v3 : (W1 m ρ c (Proc.devRef .tc main_v3) : S400000.Idx → BitVec 32) = Whole.endNodes (arg m c main_arg1) := by
  show StableHlo.after hostOps0 (W0 m ρ c) (Proc.devRef .tc main_v3) = _
  after_results <;> rfl

theorem V1_v18 : (V1 m ρ c main_v18 : S64x128.Idx → EReal) = EdgeConv.rowsFrom 64 0 (by omega) (arg m c main_arg3) := by
  refine Eq.trans ?_ (slice_rows 0 (arg m c main_arg3) Facts₀.slices_S160x128_S64x128_0_0 (by omega))
  show StableHlo.after hostOps0 (W0 m ρ c) (Proc.devRef .tc main_v18) = _
  after_results <;> rfl

theorem V1_v19 : (V1 m ρ c main_v19 : S64x128.Idx → EReal) = EdgeConv.rowsFrom 64 64 (by omega) (arg m c main_arg3) := by
  refine Eq.trans ?_ (slice_rows 64 (arg m c main_arg3) Facts₀.slices_S160x128_S64x128_64_0 (by omega))
  show StableHlo.after hostOps0 (W0 m ρ c) (Proc.devRef .tc main_v19) = _
  after_results <;> rfl

theorem V1_v20 : (V1 m ρ c main_v20 : S32x128.Idx → EReal) = EdgeConv.rowsFrom 32 128 (by omega) (arg m c main_arg3) := by
  refine Eq.trans ?_ (slice_rows 128 (arg m c main_arg3) Facts₀.slices_S160x128_S32x128_128_0 (by omega))
  show StableHlo.after hostOps0 (W0 m ρ c) (Proc.devRef .tc main_v20) = _
  after_results <;> rfl

local macro "host_stretch0" : tactic =>
  `(tactic| (show StableHlo.after hostOps0 (W0 _ _ _) (Proc.devRef .tc _) = _; after_results <;> rfl))

theorem V1_arg2 : (V1 m ρ c main_arg2 : S400000x32.Idx → EReal) = arg m c main_arg2 := by host_stretch0
theorem V1_arg4 : (V1 m ρ c main_arg4 : S128.Idx → EReal) = arg m c main_arg4 := by host_stretch0
theorem V1_arg5 : (V1 m ρ c main_arg5 : S128x128.Idx → EReal) = arg m c main_arg5 := by host_stretch0
theorem V1_arg6 : (V1 m ρ c main_arg6 : S128.Idx → EReal) = arg m c main_arg6 := by host_stretch0
theorem V1_arg7 : (V1 m ρ c main_arg7 : S128x64.Idx → EReal) = arg m c main_arg7 := by host_stretch0
theorem V1_arg8 : (V1 m ρ c main_arg8 : S64.Idx → EReal) = arg m c main_arg8 := by host_stretch0
theorem V1_arg9 : (V1 m ρ c main_arg9 : S64.Idx → EReal) = arg m c main_arg9 := by host_stretch0
theorem V1_arg10 : (V1 m ρ c main_arg10 : S64.Idx → EReal) = arg m c main_arg10 := by host_stretch0

/-! ## After the message region: its output array holds the messages -/

theorem W2_v21 (H0 : MsgRegion) :
    (W2 m ρ c (Proc.devRef .tc main_v21) : S400000x64.Idx → EReal)
      = Whole.msg (arg m c main_arg0) (arg m c main_arg1) (arg m c main_arg2) (arg m c main_arg3) (arg m c main_arg4) (arg m c main_arg5)
          (arg m c main_arg6) (arg m c main_arg7) (arg m c main_arg8) (arg m c main_arg9) (arg m c main_arg10) := by
  refine (W2_arr m ρ c 13).trans ?_
  rw [H0 (V1 m ρ) c, V1_v10, V1_v17, V1_v18, V1_v19, V1_v20, V1_arg2, V1_arg4, V1_arg5, V1_arg6, V1_arg7, V1_arg8, V1_arg9, V1_arg10]
  rfl

/-! ## The second host stretch: the scatter-add and the update network's weight bands -/

local macro "host_stretch1" : tactic =>
  `(tactic| (show StableHlo.after hostOps1 (W2 _ _ _) (Proc.devRef .tc _) = _; after_results))

/-- An argument that no window of the message region stages passes the first two stretches untouched. -/
theorem W2_arg (k : Ref sig .tc) (hk : ∀ w, Pipeline.arrRef spec0 w ≠ k)
    (h1 : W1 m ρ c (Proc.devRef .tc k) = arg m c k) : W2 m ρ c (Proc.devRef .tc k) = arg m c k :=
  (W2_of_ne m ρ c k hk).trans h1

theorem W1_arg0 : (W1 m ρ c (Proc.devRef .tc main_arg0) : S50000x64.Idx → EReal) = arg m c main_arg0 := by host_stretch0
theorem W1_arg11 : (W1 m ρ c (Proc.devRef .tc main_arg11) : S128x128.Idx → EReal) = arg m c main_arg11 := by host_stretch0
theorem W1_arg12 : (W1 m ρ c (Proc.devRef .tc main_arg12) : S128.Idx → EReal) = arg m c main_arg12 := by host_stretch0
theorem W1_arg13 : (W1 m ρ c (Proc.devRef .tc main_arg13) : S128x128.Idx → EReal) = arg m c main_arg13 := by host_stretch0
theorem W1_arg14 : (W1 m ρ c (Proc.devRef .tc main_arg14) : S128.Idx → EReal) = arg m c main_arg14 := by host_stretch0
theorem W1_arg15 : (W1 m ρ c (Proc.devRef .tc main_arg15) : S128x64.Idx → EReal) = arg m c main_arg15 := by host_stretch0
theorem W1_arg16 : (W1 m ρ c (Proc.devRef .tc main_arg16) : S64.Idx → EReal) = arg m c main_arg16 := by host_stretch0
theorem W1_arg17 : (W1 m ρ c (Proc.devRef .tc main_arg17) : S64.Idx → EReal) = arg m c main_arg17 := by host_stretch0
theorem W1_arg18 : (W1 m ρ c (Proc.devRef .tc main_arg18) : S64.Idx → EReal) = arg m c main_arg18 := by host_stretch0

theorem V3_arg0 : (V3 m ρ c main_arg0 : S50000x64.Idx → EReal) = arg m c main_arg0 := by
  refine Eq.trans ?_ (W2_arg m ρ c main_arg0 (by decide) (W1_arg0 m ρ c)); host_stretch1
theorem V3_arg12 : (V3 m ρ c main_arg12 : S128.Idx → EReal) = arg m c main_arg12 := by
  refine Eq.trans ?_ (W2_arg m ρ c main_arg12 (by decide) (W1_arg12 m ρ c)); host_stretch1
theorem V3_arg13 : (V3 m ρ c main_arg13 : S128x128.Idx → EReal) = arg m c main_arg13 := by
  refine Eq.trans ?_ (W2_arg m ρ c main_arg13 (by decide) (W1_arg13 m ρ c)); host_stretch1
theorem V3_arg14 : (V3 m ρ c main_arg14 : S128.Idx → EReal) = arg m c main_arg14 := by
  refine Eq.trans ?_ (W2_arg m ρ c main_arg14 (by decide) (W1_arg14 m ρ c)); host_stretch1
theorem V3_arg15 : (V3 m ρ c main_arg15 : S128x64.Idx → EReal) = arg m c main_arg15 := by
  refine Eq.trans ?_ (W2_arg m ρ c main_arg15 (by decide) (W1_arg15 m ρ c)); host_stretch1
theorem V3_arg16 : (V3 m ρ c main_arg16 : S64.Idx → EReal) = arg m c main_arg16 := by
  refine Eq.trans ?_ (W2_arg m ρ c main_arg16 (by decide) (W1_arg16 m ρ c)); host_stretch1
theorem V3_arg17 : (V3 m ρ c main_arg17 : S64.Idx → EReal) = arg m c main_arg17 := by
  refine Eq.trans ?_ (W2_arg m ρ c main_arg17 (by decide) (W1_arg17 m ρ c)); host_stretch1
theorem V3_arg18 : (V3 m ρ c main_arg18 : S64.Idx → EReal) = arg m c main_arg18 := by
  refine Eq.trans ?_ (W2_arg m ρ c main_arg18 (by decide) (W1_arg18 m ρ c)); host_stretch1

theorem V3_v25 : (V3 m ρ c main_v25 : S64x128.Idx → EReal) = EdgeConv.rowsFrom 64 0 (by omega) (arg m c main_arg11) := by
  refine Eq.trans ?_ (slice_rows 0 (arg m c main_arg11) Facts₀.slices_S128x128_S64x128_0_0 (by omega))
  refine Eq.trans ?_ (congrArg (fun x => extractStridedSlice S64x128 ![0, 0] x Facts₀.slices_S128x128_S64x128_0_0)
    (W2_arg m ρ c main_arg11 (by decide) (W1_arg11 m ρ c)))
  host_stretch1

theorem V3_v26 : (V3 m ρ c main_v26 : S64x128.Idx → EReal) = EdgeConv.rowsFrom 64 64 (by omega) (arg m c main_arg11) := by
  refine Eq.trans ?_ (slice_rows 64 (arg m c main_arg11) Facts₀.slices_S128x128_S64x128_64_0 (by omega))
  refine Eq.trans ?_ (congrArg (fun x => extractStridedSlice S64x128 ![64, 0] x Facts₀.slices_S128x128_S64x128_64_0)
    (W2_arg m ρ c main_arg11 (by decide) (W1_arg11 m ρ c)))
  host_stretch1

/-- The aggregated messages: the scatter-add, from zero, of the message region's output into the edges' end nodes. -/
theorem V3_v24 (H0 : MsgRegion) :
    (V3 m ρ c main_v24 : S50000x64.Idx → EReal)
      = Whole.agg (arg m c main_arg1) (Whole.msg (arg m c main_arg0) (arg m c main_arg1) (arg m c main_arg2) (arg m c main_arg3)
          (arg m c main_arg4) (arg m c main_arg5) (arg m c main_arg6) (arg m c main_arg7) (arg m c main_arg8) (arg m c main_arg9) (arg m c main_arg10)) := by
  have h3 : (W2 m ρ c (Proc.devRef .tc main_v3) : S400000.Idx → BitVec 32) = Whole.endNodes (arg m c main_arg1) :=
    (W2_of_ne m ρ c main_v3 (by decide)).trans (V1_v3 m ρ c)
  unfold Whole.agg
  rw [← W2_v21 m ρ c H0, ← h3]
  host_stretch1
  rfl

/-! ## The two results -/

/-- The messages, as the run leaves them in the first region's output array. -/
theorem result_msg (H0 : MsgRegion) :
    (W4 m ρ c (Proc.devRef .tc main_v21) : S400000x64.Idx → EReal)
      = Whole.msg (arg m c main_arg0) (arg m c main_arg1) (arg m c main_arg2) (arg m c main_arg3) (arg m c main_arg4) (arg m c main_arg5)
          (arg m c main_arg6) (arg m c main_arg7) (arg m c main_arg8) (arg m c main_arg9) (arg m c main_arg10) := by
  refine (W4_of_ne m ρ c main_v21 (by decide)).trans ?_
  refine Eq.trans ?_ (W2_v21 m ρ c H0)
  host_stretch1

/-- The nodes' new rows, as the run leaves them in the second region's output array. -/
theorem result_new (H0 : MsgRegion) (H1 : UpdRegion) :
    (W4 m ρ c (Proc.devRef .tc main_v27) : S50000x64.Idx → EReal)
      = Whole.hNew (arg m c main_arg0) (arg m c main_arg1) (arg m c main_arg2) (arg m c main_arg3) (arg m c main_arg4) (arg m c main_arg5)
          (arg m c main_arg6) (arg m c main_arg7) (arg m c main_arg8) (arg m c main_arg9) (arg m c main_arg10) (arg m c main_arg11)
          (arg m c main_arg12) (arg m c main_arg13) (arg m c main_arg14) (arg m c main_arg15) (arg m c main_arg16) (arg m c main_arg17) (arg m c main_arg18) := by
  refine (W4_arr m ρ c 11).trans ?_
  rw [H1 (V3 m ρ) c, V3_arg0, V3_v24 m ρ c H0, V3_v25, V3_v26, V3_arg12, V3_arg13, V3_arg14, V3_arg15, V3_arg16, V3_arg17, V3_arg18]
  rfl

end Cert.KernelIdeal.WholeValue

end
-- ==== Proof.LibPlainDot.lean ====
/-
  A matrix product of an [R, K] operand by a [K, C] operand, contracted over the one shared axis (the
  dimension numbers lhs_contracting = [1], rhs_contracting = [0], no batch axes), read at an entry (p, q) on the
  extended reals: the plain sum over k of l(p, k) · r(k, q). Stated for ANY dimension-number record of that
  form, so that it serves every such product whatever the record's name and whatever R, K, C are.
-/
import Idealize.ShloMosaic.PureOps.Ideal.Laws
import Idealize.ShloMosaic.Lib.ValueIdx

noncomputable section

namespace Idealize.ShloMosaic.PlainDot

open Idealize.ShloMosaic Idealize.ShloMosaic.ValueIdx

variable {R K C : ℕ}

/-- The dimension numbers of a plain row-by-column product: the left operand's axis 1 is contracted with the right
    operand's axis 0; the left operand's axis 0 and the right operand's axis 1 survive, in that order; no batch axes. -/
structure IsPlain (d : DotDims ⟨2, ![R, K]⟩ ⟨2, ![K, C]⟩ ⟨2, ![R, C]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![R, K]⟩ ⟨2, ![K, C]⟩ ⟨2, ![R, C]⟩}

/-- A coordinate of an index depends on the axis' position only. -/
private theorem coord_congr {s : Shape} (j : s.Idx) (a b : Nat) (ha : a < s.rank) (hb : b < s.rank) (e : a = b) :
    (j ⟨a, ha⟩).val = (j ⟨b, hb⟩).val := by subst e; rfl

/-- The left operand's row is the result's row. -/
theorem lhs_row (h : IsPlain d) (j : (⟨2, ![R, C]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by simp [h.lb, h.ln])

/-- The right operand's column is the result's column. -/
theorem rhs_col (h : IsPlain d) (j : (⟨2, ![R, C]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by simp [h.lb, h.ln, h.rn])

theorem contr_rank (h : IsPlain d) : d.contr.rank = 1 := by
  rw [d.rank_contr, h.lc]; rfl

theorem contr_size (h : IsPlain d) : d.contr.size ⟨0, by rw [contr_rank h]; exact Nat.one_pos⟩ = K := by
  rw [d.size_contr 0 (by rw [h.lc]; exact Nat.one_pos)]
  simp [h.lc]

/-- The product read at (p, q): the sum over the contracted axis. -/
theorem sum_apply (h : IsPlain d) {φ₁ φ₂ : FTy} (l : FVec Ideal ⟨2, ![R, K]⟩ φ₁) (r : FVec Ideal ⟨2, ![K, C]⟩ φ₂)
    (p : Fin R) (q : Fin C) :
    (∑ k : d.contr.Idx, l (d.lhsIdx (ix2 p q) k) * r (d.rhsIdx (ix2 p q) k)) = ∑ k : Fin K, l (ix2 p k) * r (ix2 k q) := by
  rw [← Equiv.sum_comp (contrEquiv1 d K (contr_rank h) (contr_size h)).symm]
  refine Finset.sum_congr rfl fun k _ => ?_
  have hk := contrEquiv1_symm_val d K (contr_rank h) (contr_size h) k
  have el : d.lhsIdx (ix2 p q) ((contrEquiv1 d K (contr_rank h) (contr_size h)).symm k) = ix2 p k := funext fun a => Fin.ext (by
    match a with
    | ⟨0, _⟩ => exact lhs_row h _ _
    | ⟨1, _⟩ => exact (d.lhsIdx_val_of_single h.lc _ _).trans hk)
  have er : d.rhsIdx (ix2 p q) ((contrEquiv1 d K (contr_rank h) (contr_size h)).symm k) = ix2 k q := funext fun a => Fin.ext (by
    match a with
    | ⟨0, _⟩ => exact (d.rhsIdx_val_of_single h.rc _ _).trans hk
    | ⟨1, _⟩ => exact rhs_col h _ _)
  rw [el, er]

/-- A kernel's matrix product into a zero accumulator, read at (p, q). -/
theorem matmul_zero_apply (h : IsPlain d) {φ₁ φ₂ : FTy} (prec : Option ContractPrecision)
    (l : FVec Ideal ⟨2, ![R, K]⟩ φ₁) (r : FVec Ideal ⟨2, ![K, C]⟩ φ₂) (p : Fin R) (q : Fin C) :
    FloatOps.matmul d prec l r (constant ⟨2, ![R, C]⟩ .f32 0x00000000#32) (ix2 p q) = ∑ k : Fin K, l (ix2 p k) * r (ix2 k q) := by
  rw [Ideal.matmul_constant_zero_apply]
  exact sum_apply h l r p q

/-- The host's matrix product read at (p, q). -/
theorem dotGeneral_apply (h : IsPlain d) {φ₁ φ₂ : FTy} (prec : Option ContractPrecision) (sched : HostSchedule)
    (l : FVec Ideal ⟨2, ![R, K]⟩ φ₁) (r : FVec Ideal ⟨2, ![K, C]⟩ φ₂) (p : Fin R) (q : Fin C) :
    FloatOps.dotGeneral d prec sched l r (ix2 p q) = ∑ k : Fin K, l (ix2 p k) * r (ix2 k q) := by
  rw [Ideal.dotGeneral_apply]
  exact sum_apply h l r p q

end Idealize.ShloMosaic.PlainDot

end
-- ==== Proof.MsgBlocks.lean ====
/-
  The first kernel region's value, block by block: each block of 4000 rows of the message array is the row-wise
  message function of the blocks of its inputs.

  A row of the block is computed from the same row of the three row-blocked operands and from the whole weights:
  three matrix products summed with a bias (the first layer on the three parts of its input row), max with zero, a
  second affine layer, max with zero, a third affine layer, then the normalisation of the row of 64 entries. Every
  operation of the body is read at an entry (p, q); the row sums are sums over the row's 64 coordinates.
-/
import proofs.«149934_j74174085202606_1_alg».proof.Proof.Gen.KernelIdeal.Frame
import proofs.«149934_j74174085202606_1_alg».proof.Proof.Spec
import proofs.«149934_j74174085202606_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.MsgValue

open Cert.KernelIdeal Idealize.ShloMosaic Idealize.ShloMosaic.TcCoe Idealize.ShloMosaic.ValueIdx Idealize.SL.Sem
open EdgeConv (relu dense mean64 layerNorm tail msgPre msgF)

/-! ## One operation at an entry -/

section Ops
variable {α : Type}

/-- A vector of n entries laid out as one row and repeated down R rows reads, at (p, q), its entry q. -/
theorem rowBias_apply {R n : ℕ} (b : (⟨1, ![n]⟩ : Shape).Idx → α) (h1 : (⟨1, ![n]⟩ : Shape).ShapeCasts ⟨2, ![1, n]⟩)
    (h2 : (⟨2, ![1, n]⟩ : Shape).Broadcasts ⟨2, ![R, n]⟩) (p : Fin R) (q : Fin n) :
    broadcastTo ⟨2, ![R, n]⟩ (shapeCast ⟨2, ![1, n]⟩ b h1) h2 (ix2 p q) = b (ix1 q) := by
  rw [broadcastTo_1b_ab_apply, shapeCast_a_1a_apply]

/-- A vector of R entries laid out as one column reads, at (p, 0), its entry p. -/
theorem column_apply {R : ℕ} (v : (⟨1, ![R]⟩ : Shape).Idx → α) (h : (⟨1, ![R]⟩ : Shape).ShapeCasts ⟨2, ![R, 1]⟩)
    (p : Fin R) (u : Fin 1) : shapeCast ⟨2, ![R, 1]⟩ v h (ix2 p u) = v (ix1 p) :=
  shapeCast_apply v h _ _ (by
    have hu : u.val = 0 := by omega
    rw [Shape.rowMajor_val_two, Shape.rowMajor_val_one]
    show p.val = p.val * 1 + u.val
    rw [hu, Nat.mul_one, Nat.add_zero])

/-- One column repeated across C columns reads, at (p, q), the column's entry p. -/
theorem columnBcast_apply {R C : ℕ} (v : (⟨2, ![R, 1]⟩ : Shape).Idx → α) (h : (⟨2, ![R, 1]⟩ : Shape).Broadcasts ⟨2, ![R, C]⟩)
    (p : Fin R) (q : Fin C) : broadcastTo ⟨2, ![R, C]⟩ v h (ix2 p q) = v (ix2 p (0 : Fin 1)) := by
  refine broadcastTo_apply v h (ix2 p q) (ix2 p (0 : Fin 1)) fun ax => ?_
  match ax with
  | ⟨0, _⟩ =>
    show p.val = if R = 1 then 0 else p.val
    split
    · have := p.isLt; omega
    · rfl
  | ⟨1, _⟩ => rfl

end Ops

/-- The sum along a row: the reduction over axis 1 of an [R, C] array, at p, is the sum over the row's C entries. -/
theorem rowSum_apply {R C : ℕ} (src : FVec Ideal ⟨2, ![R, C]⟩ .f32) (acc : BitVec FTy.f32.bits)
    (h : (⟨2, ![R, C]⟩ : Shape).Reduces [1] ⟨1, ![R]⟩) (hφ : FKind.Formats FTy.f32)
    (hacc : acc = FKind.add.neutral .f32 hφ) (p : Fin R) :
    multiReduction (F := Ideal) .add [1] ⟨1, ![R]⟩ src acc h hφ hacc (ix1 p) = ∑ k : Fin C, src (ix2 p k) := by
  refine (Ideal.multiReduction_add_single src acc h hφ hacc (ix1 p)).trans ?_
  refine Finset.sum_congr rfl fun k _ => congrArg src ?_
  funext c; apply Fin.ext
  match c with
  | ⟨0, _⟩ => rfl
  | ⟨1, _⟩ => rfl

/-- The same, over the proofs of the side conditions as a printed reduction from the zero word carries them. -/
theorem rowSum_zero_apply {R C : ℕ} (src : FVec Ideal ⟨2, ![R, C]⟩ .f32)
    (h : (⟨2, ![R, C]⟩ : Shape).Reduces [1] ⟨1, ![R]⟩) (hφ : FTy.f32 = FTy.f32 ∨ FTy.f32 = FTy.bf16)
    (hacc : (0x00000000#32 : BitVec FTy.f32.bits) = 0x00000000#32) (p : Fin R) :
    multiReduction (F := Ideal) .add [1] ⟨1, ![R]⟩ src 0x00000000#32 h hφ hacc (ix1 p) = ∑ k : Fin C, src (ix2 p k) :=
  rowSum_apply src _ h hφ hacc p

/-- The inverse square root of a vector, at an entry. -/
theorem rsqrt_apply {s : Shape} {φ : FTy} (a : FVec Ideal s φ) (i : s.Idx) : rsqrt a i = Ideal.rsqrt (a i) := rfl

/-! ## The payloads at an entry -/

theorem plain_64_128 : PlainDot.IsPlain dot_S4000x64_S64x128_S4000x128_1_0_0_1_n_n := ⟨rfl, rfl, rfl, rfl, rfl, rfl⟩
theorem plain_32_128 : PlainDot.IsPlain dot_S4000x32_S32x128_S4000x128_1_0_0_1_n_n := ⟨rfl, rfl, rfl, rfl, rfl, rfl⟩
theorem plain_128_128 : PlainDot.IsPlain dot_S4000x128_S128x128_S4000x128_1_0_0_1_n_n := ⟨rfl, rfl, rfl, rfl, rfl, rfl⟩
theorem plain_128_64 : PlainDot.IsPlain dot_S4000x128_S128x64_S4000x64_1_0_0_1_n_n := ⟨rfl, rfl, rfl, rfl, rfl, rfl⟩

/-- The second layer's output before its max with zero, at (p, q): the second affine layer of the first layer's row
    after its max with zero, the first layer being the three products summed with the bias. -/
theorem pay2_apply (v0 v3 : Vec Ideal S4000x64 .f32) (v6 : Vec Ideal S4000x32 .f32) (v8 v11 : Vec Ideal S64x128 .f32)
    (v14 : Vec Ideal S32x128 .f32) (v22 : Vec Ideal S128 .f32) (v29 : Vec Ideal S128x128 .f32) (v32 : Vec Ideal S128 .f32)
    (p : Fin 4000) (q : Fin 128) :
    Gen.k0_pay2 (F := Ideal) v0 v3 v6 v8 v11 v14 v22 v29 v32 (ix2 p q)
      = dense (fun k' => relu (msgPre (fun k => v0 (ix2 p k)) (fun k => v3 (ix2 p k)) (fun k => v6 (ix2 p k)) v8 v11 v14 v22 k')) v29 v32 q := by
  unfold Gen.k0_pay2
  simp only [addf_apply, maximumf_apply, truncf_apply, broadcast_apply, rowBias_apply,
    PlainDot.matmul_zero_apply plain_128_128, PlainDot.matmul_zero_apply plain_64_128, PlainDot.matmul_zero_apply plain_32_128,
    shapeCast_self]
  rfl

/-- The zero the second layer's output is compared with. -/
theorem pay3_apply (i : S4000x128.Idx) : Gen.k0_pay3 (F := Ideal) i = Ideal.ofBits .f32 0x00000000#32 := rfl

/-- The stored block at (p, q), from the second layer's output and the array it is compared with: the third affine
    layer of their entrywise maximum, normalised along the row. -/
theorem pay1_apply (v35 v36 : FVec Ideal S4000x128 .f32) (v39 : Vec Ideal S128x64 .f32) (v42 v64 v68 : Vec Ideal S64 .f32)
    (p : Fin 4000) (q : Fin 64) :
    Gen.k0_pay1 (F := Ideal) v35 v36 v39 v42 v64 v68 (ix2 p q)
      = layerNorm (dense (fun k => max (v35 (ix2 p k)) (v36 (ix2 p k))) v39 v42) v64 v68 q := by
  unfold Gen.k0_pay1
  simp only [addf_apply, subf_apply, mulf_apply, divf_apply, maximumf_apply, truncf_apply, broadcast_apply, rsqrt_apply,
    rowBias_apply, columnBcast_apply, column_apply, PlainDot.matmul_zero_apply plain_128_64]
  repeat (rw [rowSum_zero_apply]; try simp only [addf_apply, subf_apply, mulf_apply, divf_apply, maximumf_apply, truncf_apply,
    broadcast_apply, rsqrt_apply, rowBias_apply, columnBcast_apply, column_apply, PlainDot.matmul_zero_apply plain_128_64])
  rfl

/-! ## The block -/

theorem zeros2 : (![0, 0] : Fin 2 → Nat) = fun _ => 0 := funext fun a => by fin_cases a <;> rfl
theorem zeros1 : (![0] : Fin 1 → Nat) = fun _ => 0 := funext fun a => by fin_cases a; rfl

/-- The body's output block is the row-wise message function of its input blocks. -/
theorem block_eq (x0 x1 : Vec Ideal S4000x64 .f32) (x2 : Vec Ideal S4000x32 .f32) (x3 x4 : Vec Ideal S64x128 .f32) (x5 : Vec Ideal S32x128 .f32)
    (x6 : Vec Ideal S128 .f32) (x7 : Vec Ideal S128x128 .f32) (x8 : Vec Ideal S128 .f32) (x9 : Vec Ideal S128x64 .f32) (x10 x11 x12 : Vec Ideal S64 .f32) :
    Gen.out0_13 (F := Ideal) x0 x1 x2 x3 x4 x5 x6 x7 x8 x9 x10 x11 x12 = EdgeConv.msgF 4000 x0 x1 x2 x3 x4 x5 x6 x7 x8 x9 x10 x11 x12 := by
  funext j
  obtain ⟨p, q, rfl⟩ : ∃ (p : Fin 4000) (q : Fin 64), j = ix2 p q := ⟨j 0, j 1, eq_ix2 j⟩
  unfold Gen.out0_13
  rw [View.canon_unit_zero zeros2]
  simp only [View.ld_unit_zero (S := S4000x64) zeros2, View.ld_unit_zero (S := S4000x32) zeros2,
    View.ld_unit_zero (S := S64x128) zeros2, View.ld_unit_zero (S := S32x128) zeros2, View.ld_unit_zero (S := S128x128) zeros2,
    View.ld_unit_zero (S := S128x64) zeros2, View.ld_unit_zero (S := S128) zeros1, View.ld_unit_zero (S := S64) zeros1]
  rw [pay1_apply, EdgeConv.msgF_apply]
  simp only [pay2_apply, pay3_apply]
  rfl

end Cert.KernelIdeal.MsgValue

end
-- ==== Proof.MsgArray.lean ====
/-
  From blocks to the whole array, for the message network.

  The grid has 100 points; point t works on rows 4000·t … 4000·t + 3999 of the two gathered node arrays and of the
  edge attributes, reads every weight, bias, gain and shift whole, and leaves rows 4000·t … 4000·t + 3999 of the
  messages. A message row depends on the same row of the three row-indexed operands only, so the block a point
  leaves is that block of the messages of the whole arrays; the 100 blocks tile the 400000 rows (row r lies in
  the block of point r / 4000), so the array ends holding the messages of the whole arrays.
-/
import proofs.«149934_j74174085202606_1_alg».proof.Proof.Gen.KernelIdeal.Frame
import proofs.«149934_j74174085202606_1_alg».proof.Proof.Spec
import Idealize.ShloMosaic.Lib.Pipeline.Value
import Idealize.ShloMosaic.Lib.ValueIdx

noncomputable section

namespace Cert.KernelIdeal.MsgArray

open Cert.KernelIdeal Idealize.ShloMosaic Idealize.ShloMosaic.TcCoe Idealize.ShloMosaic.ValueIdx Idealize.SL.Sem
open Idealize.ShloMosaic.Pipeline (Dat)

open Facts₀ Facts

/-! ## The index maps, decided once over the grid -/

/-- The grid has 100 points. -/
theorem t_lt (t : Fin cfg0.N) : t.val < 100 := lt_of_lt_of_eq (b := cfg0.N) t.isLt Gen.N_0

/-- The three row-indexed inputs and the output move with the point: block (t, 0). -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_13.index t (0 : Fin 2) = t.val ∧ win0_13.index t (1 : Fin 2) = 0 :=
  (by decide +kernel : ∀ t : Fin grid0.N, _)

/-- The weights, biases, gain and shift stay put: block zero at every point. -/
theorem idx_whole : ∀ t : Fin cfg0.N,
    win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 1) = 0
    ∧ win0_7.index t (0 : Fin 2) = 0
    ∧ win0_7.index t (1 : Fin 2) = 0
    ∧ win0_8.index t (0 : Fin 1) = 0
    ∧ win0_9.index t (0 : Fin 2) = 0
    ∧ win0_9.index t (1 : Fin 2) = 0
    ∧ win0_10.index t (0 : Fin 1) = 0
    ∧ win0_11.index t (0 : Fin 1) = 0
    ∧ win0_12.index t (0 : Fin 1) = 0 :=
  (by decide +kernel : ∀ t : Fin grid0.N, _)

/-- Row p of point t's block is row 4000·t + p of the array. -/
abbrev row (t : Fin cfg0.N) (p : Fin 4000) : Fin 400000 :=
  ⟨4000 * t.val + p.val, by have := t_lt t; have := p.isLt; omega⟩

/-! ## A message row depends on its own row of the row-indexed operands only -/

theorem msgF_rows (hs hd : EdgeConv.Arr2 4000 64) (ea : EdgeConv.Arr2 4000 32) (HS HD : EdgeConv.Arr2 400000 64) (EA : EdgeConv.Arr2 400000 32)
    (Wa Wb : EdgeConv.Arr2 64 128) (Wc : EdgeConv.Arr2 32 128) (b1 : EdgeConv.Arr1 128) (W2 : EdgeConv.Arr2 128 128) (b2 : EdgeConv.Arr1 128)
    (W3 : EdgeConv.Arr2 128 64) (b3 g β : EdgeConv.Arr1 64) (p : Fin 4000) (P : Fin 400000) (j : Fin 64)
    (hhs : ∀ k : Fin 64, hs (ix2 p k) = HS (ix2 P k)) (hhd : ∀ k : Fin 64, hd (ix2 p k) = HD (ix2 P k))
    (hea : ∀ k : Fin 32, ea (ix2 p k) = EA (ix2 P k)) :
    EdgeConv.msgF 4000 hs hd ea Wa Wb Wc b1 W2 b2 W3 b3 g β (ix2 p j)
      = EdgeConv.msgF 400000 HS HD EA Wa Wb Wc b1 W2 b2 W3 b3 g β (ix2 P j) := by
  rw [EdgeConv.msgF_apply, EdgeConv.msgF_apply]
  simp only [hhs, hhd, hea]

section
variable (V : (c : Dev nD) → (b : Ref sig .tc) → Buf (Elt Ideal) ((c : Thread nD τ).loc b))

/-! ## Each window's block, read off its array -/

/-- Entry (p, k) of window 0's block at point t is entry (4000·t + p, k) of its array. -/
theorem rows0_apply (c : Dev nD) (t : Fin cfg0.N) (p : Fin 4000) (k : Fin 64) :
    (Gen.iblk0 (F := Ideal) V c 0 t : Vec Ideal S4000x64 .f32) (ix2 p k)
      = (V c main_v10 : S400000x64.Idx → Elt Ideal .f32) (ix2 (row t p) k) := by
  obtain ⟨r0_0, r0_1, r1_0, r1_1, r2_0, r2_1, -⟩ := idx_rows t
  unfold Gen.iblk0
  rw [View.read_apply]
  show V c main_v10 _ = V c main_v10 _
  congr 1
  funext a
  apply Fin.ext
  match a with
  | ⟨0, _⟩ => show win0_0.index t (0 : Fin 2) * 4000 + 1 * p.val = 4000 * t.val + p.val; rw [r0_0]; omega
  | ⟨1, _⟩ => show win0_0.index t (1 : Fin 2) * 64 + 1 * k.val = k.val; rw [r0_1]; omega

/-- Entry (p, k) of window 1's block at point t is entry (4000·t + p, k) of its array. -/
theorem rows1_apply (c : Dev nD) (t : Fin cfg0.N) (p : Fin 4000) (k : Fin 64) :
    (Gen.iblk0 (F := Ideal) V c 1 t : Vec Ideal S4000x64 .f32) (ix2 p k)
      = (V c main_v17 : S400000x64.Idx → Elt Ideal .f32) (ix2 (row t p) k) := by
  obtain ⟨r0_0, r0_1, r1_0, r1_1, r2_0, r2_1, -⟩ := idx_rows t
  unfold Gen.iblk0
  rw [View.read_apply]
  show V c main_v17 _ = V c main_v17 _
  congr 1
  funext a
  apply Fin.ext
  match a with
  | ⟨0, _⟩ => show win0_1.index t (0 : Fin 2) * 4000 + 1 * p.val = 4000 * t.val + p.val; rw [r1_0]; omega
  | ⟨1, _⟩ => show win0_1.index t (1 : Fin 2) * 64 + 1 * k.val = k.val; rw [r1_1]; omega

/-- Entry (p, k) of window 2's block at point t is entry (4000·t + p, k) of its array. -/
theorem rows2_apply (c : Dev nD) (t : Fin cfg0.N) (p : Fin 4000) (k : Fin 32) :
    (Gen.iblk0 (F := Ideal) V c 2 t : Vec Ideal S4000x32 .f32) (ix2 p k)
      = (V c main_arg2 : S400000x32.Idx → Elt Ideal .f32) (ix2 (row t p) k) := by
  obtain ⟨r0_0, r0_1, r1_0, r1_1, r2_0, r2_1, -⟩ := idx_rows t
  unfold Gen.iblk0
  rw [View.read_apply]
  show V c main_arg2 _ = V c main_arg2 _
  congr 1
  funext a
  apply Fin.ext
  match a with
  | ⟨0, _⟩ => show win0_2.index t (0 : Fin 2) * 4000 + 1 * p.val = 4000 * t.val + p.val; rw [r2_0]; omega
  | ⟨1, _⟩ => show win0_2.index t (1 : Fin 2) * 32 + 1 * k.val = k.val; rw [r2_1]; omega

/-- Window 3's block is its whole array at every point. -/
theorem whole3_eq (c : Dev nD) (t : Fin cfg0.N) :
    (Gen.iblk0 (F := Ideal) V c 3 t : Vec Ideal S64x128 .f32) = (V c main_v18 : S64x128.Idx → Elt Ideal .f32) := by
  obtain ⟨z3_0, z3_1, z4_0, z4_1, z5_0, z5_1, z6_0, z7_0, z7_1, z8_0, z9_0, z9_1, z10_0, z11_0, z12_0⟩ := idx_whole t
  funext x
  unfold Gen.iblk0
  rw [View.read_apply]
  show V c main_v18 _ = V c main_v18 x
  congr 1
  funext a
  apply Fin.ext
  match a with
  | ⟨0, _⟩ => show win0_3.index t (0 : Fin 2) * 64 + 1 * (x 0).val = (x 0).val; rw [z3_0]; omega
  | ⟨1, _⟩ => show win0_3.index t (1 : Fin 2) * 128 + 1 * (x 1).val = (x 1).val; rw [z3_1]; omega

/-- Window 4's block is its whole array at every point. -/
theorem whole4_eq (c : Dev nD) (t : Fin cfg0.N) :
    (Gen.iblk0 (F := Ideal) V c 4 t : Vec Ideal S64x128 .f32) = (V c main_v19 : S64x128.Idx → Elt Ideal .f32) := by
  obtain ⟨z3_0, z3_1, z4_0, z4_1, z5_0, z5_1, z6_0, z7_0, z7_1, z8_0, z9_0, z9_1, z10_0, z11_0, z12_0⟩ := idx_whole t
  funext x
  unfold Gen.iblk0
  rw [View.read_apply]
  show V c main_v19 _ = V c main_v19 x
  congr 1
  funext a
  apply Fin.ext
  match a with
  | ⟨0, _⟩ => show win0_4.index t (0 : Fin 2) * 64 + 1 * (x 0).val = (x 0).val; rw [z4_0]; omega
  | ⟨1, _⟩ => show win0_4.index t (1 : Fin 2) * 128 + 1 * (x 1).val = (x 1).val; rw [z4_1]; omega

/-- Window 5's block is its whole array at every point. -/
theorem whole5_eq (c : Dev nD) (t : Fin cfg0.N) :
    (Gen.iblk0 (F := Ideal) V c 5 t : Vec Ideal S32x128 .f32) = (V c main_v20 : S32x128.Idx → Elt Ideal .f32) := by
  obtain ⟨z3_0, z3_1, z4_0, z4_1, z5_0, z5_1, z6_0, z7_0, z7_1, z8_0, z9_0, z9_1, z10_0, z11_0, z12_0⟩ := idx_whole t
  funext x
  unfold Gen.iblk0
  rw [View.read_apply]
  show V c main_v20 _ = V c main_v20 x
  congr 1
  funext a
  apply Fin.ext
  match a with
  | ⟨0, _⟩ => show win0_5.index t (0 : Fin 2) * 32 + 1 * (x 0).val = (x 0).val; rw [z5_0]; omega
  | ⟨1, _⟩ => show win0_5.index t (1 : Fin 2) * 128 + 1 * (x 1).val = (x 1).val; rw [z5_1]; omega

/-- Window 6's block is its whole array at every point. -/
theorem whole6_eq (c : Dev nD) (t : Fin cfg0.N) :
    (Gen.iblk0 (F := Ideal) V c 6 t : Vec Ideal S128 .f32) = (V c main_arg4 : S128.Idx → Elt Ideal .f32) := by
  obtain ⟨z3_0, z3_1, z4_0, z4_1, z5_0, z5_1, z6_0, z7_0, z7_1, z8_0, z9_0, z9_1, z10_0, z11_0, z12_0⟩ := idx_whole t
  funext x
  unfold Gen.iblk0
  rw [View.read_apply]
  show V c main_arg4 _ = V c main_arg4 x
  congr 1
  funext a
  apply Fin.ext
  match a with
  | ⟨0, _⟩ => show win0_6.index t (0 : Fin 1) * 128 + 1 * (x 0).val = (x 0).val; rw [z6_0]; omega

/-- Window 7's block is its whole array at every point. -/
theorem whole7_eq (c : Dev nD) (t : Fin cfg0.N) :
    (Gen.iblk0 (F := Ideal) V c 7 t : Vec Ideal S128x128 .f32) = (V c main_arg5 : S128x128.Idx → Elt Ideal .f32) := by
  obtain ⟨z3_0, z3_1, z4_0, z4_1, z5_0, z5_1, z6_0, z7_0, z7_1, z8_0, z9_0, z9_1, z10_0, z11_0, z12_0⟩ := idx_whole t
  funext x
  unfold Gen.iblk0
  rw [View.read_apply]
  show V c main_arg5 _ = V c main_arg5 x
  congr 1
  funext a
  apply Fin.ext
  match a with
  | ⟨0, _⟩ => show win0_7.index t (0 : Fin 2) * 128 + 1 * (x 0).val = (x 0).val; rw [z7_0]; omega
  | ⟨1, _⟩ => show win0_7.index t (1 : Fin 2) * 128 + 1 * (x 1).val = (x 1).val; rw [z7_1]; omega

/-- Window 8's block is its whole array at every point. -/
theorem whole8_eq (c : Dev nD) (t : Fin cfg0.N) :
    (Gen.iblk0 (F := Ideal) V c 8 t : Vec Ideal S128 .f32) = (V c main_arg6 : S128.Idx → Elt Ideal .f32) := by
  obtain ⟨z3_0, z3_1, z4_0, z4_1, z5_0, z5_1, z6_0, z7_0, z7_1, z8_0, z9_0, z9_1, z10_0, z11_0, z12_0⟩ := idx_whole t
  funext x
  unfold Gen.iblk0
  rw [View.read_apply]
  show V c main_arg6 _ = V c main_arg6 x
  congr 1
  funext a
  apply Fin.ext
  match a with
  | ⟨0, _⟩ => show win0_8.index t (0 : Fin 1) * 128 + 1 * (x 0).val = (x 0).val; rw [z8_0]; omega

/-- Window 9's block is its whole array at every point. -/
theorem whole9_eq (c : Dev nD) (t : Fin cfg0.N) :
    (Gen.iblk0 (F := Ideal) V c 9 t : Vec Ideal S128x64 .f32) = (V c main_arg7 : S128x64.Idx → Elt Ideal .f32) := by
  obtain ⟨z3_0, z3_1, z4_0, z4_1, z5_0, z5_1, z6_0, z7_0, z7_1, z8_0, z9_0, z9_1, z10_0, z11_0, z12_0⟩ := idx_whole t
  funext x
  unfold Gen.iblk0
  rw [View.read_apply]
  show V c main_arg7 _ = V c main_arg7 x
  congr 1
  funext a
  apply Fin.ext
  match a with
  | ⟨0, _⟩ => show win0_9.index t (0 : Fin 2) * 128 + 1 * (x 0).val = (x 0).val; rw [z9_0]; omega
  | ⟨1, _⟩ => show win0_9.index t (1 : Fin 2) * 64 + 1 * (x 1).val = (x 1).val; rw [z9_1]; omega

/-- Window 10's block is its whole array at every point. -/
theorem whole10_eq (c : Dev nD) (t : Fin cfg0.N) :
    (Gen.iblk0 (F := Ideal) V c 10 t : Vec Ideal S64 .f32) = (V c main_arg8 : S64.Idx → Elt Ideal .f32) := by
  obtain ⟨z3_0, z3_1, z4_0, z4_1, z5_0, z5_1, z6_0, z7_0, z7_1, z8_0, z9_0, z9_1, z10_0, z11_0, z12_0⟩ := idx_whole t
  funext x
  unfold Gen.iblk0
  rw [View.read_apply]
  show V c main_arg8 _ = V c main_arg8 x
  congr 1
  funext a
  apply Fin.ext
  match a with
  | ⟨0, _⟩ => show win0_10.index t (0 : Fin 1) * 64 + 1 * (x 0).val = (x 0).val; rw [z10_0]; omega

/-- Window 11's block is its whole array at every point. -/
theorem whole11_eq (c : Dev nD) (t : Fin cfg0.N) :
    (Gen.iblk0 (F := Ideal) V c 11 t : Vec Ideal S64 .f32) = (V c main_arg9 : S64.Idx → Elt Ideal .f32) := by
  obtain ⟨z3_0, z3_1, z4_0, z4_1, z5_0, z5_1, z6_0, z7_0, z7_1, z8_0, z9_0, z9_1, z10_0, z11_0, z12_0⟩ := idx_whole t
  funext x
  unfold Gen.iblk0
  rw [View.read_apply]
  show V c main_arg9 _ = V c main_arg9 x
  congr 1
  funext a
  apply Fin.ext
  match a with
  | ⟨0, _⟩ => show win0_11.index t (0 : Fin 1) * 64 + 1 * (x 0).val = (x 0).val; rw [z11_0]; omega

/-- Window 12's block is its whole array at every point. -/
theorem whole12_eq (c : Dev nD) (t : Fin cfg0.N) :
    (Gen.iblk0 (F := Ideal) V c 12 t : Vec Ideal S64 .f32) = (V c main_arg10 : S64.Idx → Elt Ideal .f32) := by
  obtain ⟨z3_0, z3_1, z4_0, z4_1, z5_0, z5_1, z6_0, z7_0, z7_1, z8_0, z9_0, z9_1, z10_0, z11_0, z12_0⟩ := idx_whole t
  funext x
  unfold Gen.iblk0
  rw [View.read_apply]
  show V c main_arg10 _ = V c main_arg10 x
  congr 1
  funext a
  apply Fin.ext
  match a with
  | ⟨0, _⟩ => show win0_12.index t (0 : Fin 1) * 64 + 1 * (x 0).val = (x 0).val; rw [z12_0]; omega

/-! ## What a point writes back -/

/-- The messages of the whole arrays. -/
abbrev msgs (c : Dev nD) : S400000x64.Idx → Elt Ideal .f32 :=
  EdgeConv.msgF 400000 (V c main_v10) (V c main_v17) (V c main_arg2) (V c main_v18) (V c main_v19) (V c main_v20)
          (V c main_arg4) (V c main_arg5) (V c main_arg6) (V c main_arg7) (V c main_arg8) (V c main_arg9) (V c main_arg10)

/-- Point t writes back block t of the messages of the whole arrays, given that the body leaves the messages of its blocks. -/
theorem flushed_msgs (hblock : ∀ (x0 x1 : Vec Ideal S4000x64 .f32) (x2 : Vec Ideal S4000x32 .f32) (x3 x4 : Vec Ideal S64x128 .f32) (x5 : Vec Ideal S32x128 .f32) (x6 : Vec Ideal S128 .f32) (x7 : Vec Ideal S128x128 .f32) (x8 : Vec Ideal S128 .f32) (x9 : Vec Ideal S128x64 .f32) (x10 x11 x12 : Vec Ideal S64 .f32), Gen.out0_13 (F := Ideal) x0 x1 x2 x3 x4 x5 x6 x7 x8 x9 x10 x11 x12 = EdgeConv.msgF 4000 x0 x1 x2 x3 x4 x5 x6 x7 x8 x9 x10 x11 x12)
    (c : Dev nD) (t : Fin cfg0.N) :
    (Gen.dat0 (F := Ideal) V c).flushed 13 t = ((cfg0.win 13).blk t).view.read (Elt Ideal) (msgs V c) := by
  show (cfg0.win 13).cut (grid0.coords t) ((Gen.dat0 V c).after 13 t) = _
  rw [Gen.after0_13, hblock, whole3_eq, whole4_eq, whole5_eq, whole6_eq, whole7_eq, whole8_eq, whole9_eq, whole10_eq, whole11_eq, whole12_eq]
  obtain ⟨-, -, -, -, -, -, o0, o1⟩ := idx_rows t
  funext y
  obtain ⟨p, j, rfl⟩ : ∃ (p : Fin 4000) (j : Fin 64), y = ix2 p j := ⟨y 0, y 1, eq_ix2 y⟩
  show EdgeConv.msgF 4000 (Gen.iblk0 V c 0 t) (Gen.iblk0 V c 1 t) (Gen.iblk0 V c 2 t) (V c main_v18) (V c main_v19) (V c main_v20)
          (V c main_arg4) (V c main_arg5) (V c main_arg6) (V c main_arg7) (V c main_arg8) (V c main_arg9) (V c main_arg10) (ix2 p j)
      = msgs V c (((cfg0.win 13).blk t).view.emb (ix2 p j))
  have hemb : ((cfg0.win 13).blk t).view.emb (ix2 p j) = (ix2 (row t p) j : S400000x64.Idx) := by
    funext a
    apply Fin.ext
    match a with
    | ⟨0, _⟩ => show win0_13.index t (0 : Fin 2) * 4000 + 1 * p.val = 4000 * t.val + p.val; rw [o0]; omega
    | ⟨1, _⟩ => show win0_13.index t (1 : Fin 2) * 64 + 1 * j.val = j.val; rw [o1]; omega
  rw [hemb]
  exact msgF_rows _ _ _ _ _ _ _ _ _ _ _ _ _ _ _ _ p (row t p) j (rows0_apply V c t p) (rows1_apply V c t p) (rows2_apply V c t p)

/-! ## The blocks tile the array -/

/-- An index of the array is in point t's block iff each coordinate is in the block's range on its axis. -/
theorem mem_block (t : Fin cfg0.N) (i : S400000x64.Idx) :
    i ∈ ((cfg0.win 13).blk t).view.set ↔ ∀ a : Fin 2, win0_13.index t a * S4000x64.size a ≤ (i a).val ∧ (i a).val < win0_13.index t a * S4000x64.size a + S4000x64.size a := by
  show i ∈ ((View.whole main_v21).slice (win0_13.rect t)).set ↔ _
  rw [View.set_slice_whole, Rect.mem_set_unit]
  exact Iff.rfl

/-- Row r lies in the block of point r / 4000, which writes back. -/
theorem tiled (i : S400000x64.Idx) :
    ∃ t : Fin cfg0.N, (cfg0.win 13).flush t = true ∧ i ∈ ((cfg0.win 13).blk t).view.set := by
  have hi0 : (i 0).val < 400000 := (i 0).isLt
  have hi1 : (i 1).val < 64 := (i 1).isLt
  obtain ⟨t, ht⟩ : ∃ t : Fin cfg0.N, t.val = (i 0).val / 4000 :=
    ⟨⟨(i 0).val / 4000, by rw [show cfg0.N = 100 from Gen.N_0]; omega⟩, rfl⟩
  obtain ⟨-, -, -, -, -, -, o0, o1⟩ := idx_rows t
  refine ⟨t, Gen.flush0_13 t, ?_⟩
  rw [mem_block]
  intro a
  match a with
  | ⟨0, _⟩ =>
    show win0_13.index t (0 : Fin 2) * 4000 ≤ (i 0).val ∧ (i 0).val < win0_13.index t (0 : Fin 2) * 4000 + 4000
    rw [o0, ht]; omega
  | ⟨1, _⟩ =>
    show win0_13.index t (1 : Fin 2) * 64 ≤ (i 1).val ∧ (i 1).val < win0_13.index t (1 : Fin 2) * 64 + 64
    rw [o1]; omega

end

/-! ## The array after the run of the region -/

theorem array_of_block (hblock : ∀ (x0 x1 : Vec Ideal S4000x64 .f32) (x2 : Vec Ideal S4000x32 .f32) (x3 x4 : Vec Ideal S64x128 .f32) (x5 : Vec Ideal S32x128 .f32) (x6 : Vec Ideal S128 .f32) (x7 : Vec Ideal S128x128 .f32) (x8 : Vec Ideal S128 .f32) (x9 : Vec Ideal S128x64 .f32) (x10 x11 x12 : Vec Ideal S64 .f32), Gen.out0_13 (F := Ideal) x0 x1 x2 x3 x4 x5 x6 x7 x8 x9 x10 x11 x12 = EdgeConv.msgF 4000 x0 x1 x2 x3 x4 x5 x6 x7 x8 x9 x10 x11 x12)
    (V : (c : Dev nD) → (b : Ref sig .tc) → Buf (Elt Ideal) ((c : Thread nD τ).loc b)) (c : Dev nD) :
    (Gen.dat0 (F := Ideal) V c).arrAt 13 cfg0.N
      = EdgeConv.msgF 400000 (V c main_v10) (V c main_v17) (V c main_arg2) (V c main_v18) (V c main_v19) (V c main_v20)
          (V c main_arg4) (V c main_arg5) (V c main_arg6) (V c main_arg7) (V c main_arg8) (V c main_arg9) (V c main_arg10) :=
  (Gen.dat0 (F := Ideal) V c).arrAt_eq_of_cover 13 (msgs V c) (fun t _ => flushed_msgs V hblock c t) tiled

end Cert.KernelIdeal.MsgArray

end
-- ==== Proof.UpdBlocks.lean ====
/-
  The node-update region read as mathematics. Each grid point computes a block of 5000 rows; the block the body leaves
  in the output window is the row-wise update function of Spec.lean on the input blocks (`block_eq`), and, because that
  function reads row p of the row-indexed operands only, the blocks written back make up the same function of the whole
  arrays (`array_eq`).
-/
import proofs.«149934_j74174085202606_1_alg».proof.Proof.Gen.KernelIdeal.Frame
import proofs.«149934_j74174085202606_1_alg».proof.Proof.Spec
import proofs.«149934_j74174085202606_1_alg».proof.Proof.LibPlainDot
import Idealize.ShloMosaic.Lib.ValueLayout
import Idealize.ShloMosaic.Lib.Pipeline.Value
import Idealize.ShloMosaic.PureOps.Ideal.Laws

noncomputable section

namespace Cert.KernelIdeal.UpdValue

open Cert.KernelIdeal Idealize.ShloMosaic Idealize.ShloMosaic.TcCoe Idealize.ShloMosaic.ValueIdx Idealize.SL.Sem

/-! ## The index maps over the grid -/

/-- The printed index maps, decided over the grid: the two row-blocked inputs and the output move down the rows with
    the point; every other window stays on its one block. -/
theorem idx0 : ∀ t : Fin cfg1.N, win1_0.index t (0 : Fin 2) = t.val ∧ win1_0.index t (1 : Fin 2) = 0 :=
  (by decide +kernel : ∀ t : Fin grid1.N, _)
theorem idx1 : ∀ t : Fin cfg1.N, win1_1.index t (0 : Fin 2) = t.val ∧ win1_1.index t (1 : Fin 2) = 0 :=
  (by decide +kernel : ∀ t : Fin grid1.N, _)
theorem idx11 : ∀ t : Fin cfg1.N, win1_11.index t (0 : Fin 2) = t.val ∧ win1_11.index t (1 : Fin 2) = 0 :=
  (by decide +kernel : ∀ t : Fin grid1.N, _)
theorem idx2 : ∀ t : Fin cfg1.N, win1_2.index t (0 : Fin 2) = 0 ∧ win1_2.index t (1 : Fin 2) = 0 :=
  (by decide +kernel : ∀ t : Fin grid1.N, _)
theorem idx3 : ∀ t : Fin cfg1.N, win1_3.index t (0 : Fin 2) = 0 ∧ win1_3.index t (1 : Fin 2) = 0 :=
  (by decide +kernel : ∀ t : Fin grid1.N, _)
theorem idx4 : ∀ t : Fin cfg1.N, win1_4.index t (0 : Fin 1) = 0 :=
  (by decide +kernel : ∀ t : Fin grid1.N, _)
theorem idx5 : ∀ t : Fin cfg1.N, win1_5.index t (0 : Fin 2) = 0 ∧ win1_5.index t (1 : Fin 2) = 0 :=
  (by decide +kernel : ∀ t : Fin grid1.N, _)
theorem idx6 : ∀ t : Fin cfg1.N, win1_6.index t (0 : Fin 1) = 0 :=
  (by decide +kernel : ∀ t : Fin grid1.N, _)
theorem idx7 : ∀ t : Fin cfg1.N, win1_7.index t (0 : Fin 2) = 0 ∧ win1_7.index t (1 : Fin 2) = 0 :=
  (by decide +kernel : ∀ t : Fin grid1.N, _)
theorem idx8 : ∀ t : Fin cfg1.N, win1_8.index t (0 : Fin 1) = 0 :=
  (by decide +kernel : ∀ t : Fin grid1.N, _)
theorem idx9 : ∀ t : Fin cfg1.N, win1_9.index t (0 : Fin 1) = 0 :=
  (by decide +kernel : ∀ t : Fin grid1.N, _)
theorem idx10 : ∀ t : Fin cfg1.N, win1_10.index t (0 : Fin 1) = 0 :=
  (by decide +kernel : ∀ t : Fin grid1.N, _)

variable [Facts]
open Facts₀ Facts

/-! ## Two layout operations on a column, read at an index -/

section Layout
variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The sum along a row -/

/-- The lane sum of a 5000 × 64 block at row `p`: the sum of the row's 64 entries. -/
theorem rowSum_apply (w : FVec Ideal S5000x64 .f32) (h : S5000x64.Reduces [1] S5000) (hφ : FTy.f32 = FTy.f32 ∨ FTy.f32 = FTy.bf16)
    (hacc : (0x00000000#32 : BitVec FTy.f32.bits) = 0x00000000#32) (p : Fin 5000) :
    multiReduction (F := Ideal) .add [1] S5000 w 0x00000000#32 h hφ hacc (ix1 p) = ∑ k : Fin 64, w (ix2 p k) := by
  refine (Ideal.multiReduction_add_single w 0x00000000#32 h hφ hacc (ix1 p)).trans ?_
  refine Finset.sum_congr rfl fun k _ => congrArg w ?_
  funext c
  apply Fin.ext
  match c with
  | ⟨0, _⟩ => rfl
  | ⟨1, _⟩ => rfl

/-- A reciprocal square root at an index is that of the element. -/
theorem rsqrt_apply {s : Shape} {φ : FTy} (a : FVec Ideal s φ) (i : s.Idx) : rsqrt a i = Ideal.rsqrt (a i) := rfl

/-! ## The normalisation payload at an index -/

theorem pay1_apply (v0 : Vec Ideal S5000x64 .f32) (v37 : FVec Ideal S5000x64 .f32) (v56 v60 : Vec Ideal S64 .f32)
    (p : Fin 5000) (q : Fin 64) :
    Gen.k1_pay1 (F := Ideal) v0 v37 v56 v60 (ix2 p q)
      = EdgeConv.layerNorm (fun k => v37 (ix2 p k)) v56 v60 q + v0 (ix2 p q) := by
  unfold Gen.k1_pay1
  simp only [addf_apply, mulf_apply, subf_apply, divf_apply, broadcast_apply, broadcastTo_a1_ab_apply, broadcastTo_1b_ab_apply,
    shapeCast_a_1a_apply, shapeCast_a_a1_apply, rowSum_apply, rsqrt_apply]
  rw [rowSum_apply v37, rowSum_apply (mulf _ _)]
  simp only [addf_apply, mulf_apply, subf_apply, divf_apply, broadcast_apply, broadcastTo_a1_ab_apply,
    shapeCast_a_a1_apply]
  rw [rowSum_apply v37]
  rfl

/-! ## The three affine layers' payload at an index -/

/-- The three products of the update network are plain row-by-column products. -/
theorem plain_first : PlainDot.IsPlain (R := 5000) (K := 64) (C := 128) dot_S5000x64_S64x128_S5000x128_1_0_0_1_n_n :=
  ⟨rfl, rfl, rfl, rfl, rfl, rfl⟩
theorem plain_second : PlainDot.IsPlain (R := 5000) (K := 128) (C := 128) dot_S5000x128_S128x128_S5000x128_1_0_0_1_n_n :=
  ⟨rfl, rfl, rfl, rfl, rfl, rfl⟩
theorem plain_third : PlainDot.IsPlain (R := 5000) (K := 128) (C := 64) dot_S5000x128_S128x64_S5000x64_1_0_0_1_n_n :=
  ⟨rfl, rfl, rfl, rfl, rfl, rfl⟩

/-- The third layer's output row, before the normalisation: the three affine layers on the row's two parts. -/
theorem pay2_apply (v0 v2 : Vec Ideal S5000x64 .f32) (v5 v8 : Vec Ideal S64x128 .f32) (v14 : Vec Ideal S128 .f32)
    (v21 : Vec Ideal S128x128 .f32) (v24 : Vec Ideal S128 .f32) (v31 : Vec Ideal S128x64 .f32) (v34 : Vec Ideal S64 .f32)
    (p : Fin 5000) (q : Fin 64) :
    Gen.k1_pay2 (F := Ideal) v0 v2 v5 v8 v14 v21 v24 v31 v34 (ix2 p q)
      = EdgeConv.dense (fun k => EdgeConv.relu (EdgeConv.dense (fun k' => EdgeConv.relu
          (EdgeConv.updPre (fun k => v0 (ix2 p k)) (fun k => v2 (ix2 p k)) v5 v8 v14 k')) v21 v24 k)) v31 v34 q := by
  unfold Gen.k1_pay2
  simp only [addf_apply, maximumf_apply, truncf_apply, broadcast_apply, broadcastTo_1b_ab_apply, shapeCast_a_1a_apply,
    shapeCast_self, PlainDot.matmul_zero_apply plain_first, PlainDot.matmul_zero_apply plain_second,
    PlainDot.matmul_zero_apply plain_third]
  rfl

/-! ## The block the body leaves -/

theorem hz2 : (![0, 0] : Fin 2 → Nat) = fun _ => 0 := funext fun a => by fin_cases a <;> rfl
theorem hz1 : (![0] : Fin 1 → Nat) = fun _ => 0 := funext fun a => by fin_cases a; rfl

/-- What the body leaves in the output window's buffer is the row-wise update function of the input blocks. -/
theorem block_eq (x0 x1 : Vec Ideal S5000x64 .f32) (x2 x3 : Vec Ideal S64x128 .f32) (x4 : Vec Ideal S128 .f32) (x5 : Vec Ideal S128x128 .f32)
    (x6 : Vec Ideal S128 .f32) (x7 : Vec Ideal S128x64 .f32) (x8 x9 x10 : Vec Ideal S64 .f32) :
    Gen.out1_11 (F := Ideal) x0 x1 x2 x3 x4 x5 x6 x7 x8 x9 x10 = EdgeConv.updF 5000 x0 x1 x2 x3 x4 x5 x6 x7 x8 x9 x10 := by
  unfold Gen.out1_11
  rw [View.canon_unit_zero hz2]
  simp only [View.ld_unit_zero (S := S5000x64) hz2, View.ld_unit_zero (S := S64x128) hz2, View.ld_unit_zero (S := S128x128) hz2,
    View.ld_unit_zero (S := S128x64) hz2, View.ld_unit_zero (S := S128) hz1, View.ld_unit_zero (S := S64) hz1]
  funext j
  obtain ⟨p, q, rfl⟩ : ∃ (p : Fin 5000) (q : Fin 64), j = ix2 p q := ⟨j 0, j 1, eq_ix2 j⟩
  refine (pay1_apply x0 _ x9 x10 p q).trans ?_
  have e : (fun k => Gen.k1_pay2 (F := Ideal) x0 x1 x2 x3 x4 x5 x6 x7 x8 (ix2 p k))
      = EdgeConv.dense (fun k => EdgeConv.relu (EdgeConv.dense (fun k' => EdgeConv.relu
          (EdgeConv.updPre (fun k => x0 (ix2 p k)) (fun k => x1 (ix2 p k)) x2 x3 x4 k')) x5 x6 k)) x7 x8 :=
    funext fun k => pay2_apply x0 x1 x2 x3 x4 x5 x6 x7 x8 p k
  rw [e]
  rfl

/-! ## From the blocks to the array -/

/-- The update function at a row reads that row of the two row-indexed operands only: two pairs of arrays, of any
    numbers of rows, that agree on a row each give the same row of the result. -/
theorem updF_row_congr (R R' : ℕ) (h agg : EdgeConv.Arr2 R 64) (h' agg' : EdgeConv.Arr2 R' 64)
    (Wa Wb Wa' Wb' : EdgeConv.Arr2 64 128) (b1 b1' : EdgeConv.Arr1 128) (W2 W2' : EdgeConv.Arr2 128 128) (b2 b2' : EdgeConv.Arr1 128)
    (W3 W3' : EdgeConv.Arr2 128 64) (b3 b3' g g' β β' : EdgeConv.Arr1 64) (p : Fin R) (p' : Fin R') (j : Fin 64)
    (eh : ∀ k, h (ix2 p k) = h' (ix2 p' k)) (ea : ∀ k, agg (ix2 p k) = agg' (ix2 p' k))
    (e2 : Wa = Wa') (e3 : Wb = Wb') (e4 : b1 = b1') (e5 : W2 = W2') (e6 : b2 = b2') (e7 : W3 = W3') (e8 : b3 = b3')
    (e9 : g = g') (e10 : β = β') :
    EdgeConv.updF R h agg Wa Wb b1 W2 b2 W3 b3 g β (ix2 p j) = EdgeConv.updF R' h' agg' Wa' Wb' b1' W2' b2' W3' b3' g' β' (ix2 p' j) := by
  subst e2 e3 e4 e5 e6 e7 e8 e9 e10
  rw [EdgeConv.updF_apply, EdgeConv.updF_apply, funext eh, funext ea, eh j]

section Blocks
variable (V : (c : Dev nD) → (b : Ref sig .tc) → Buf (Elt Ideal) ((c : Thread nD τ).loc b)) (c : Dev nD) (t : Fin cfg1.N)

/-- Row `p` of a row-blocked input's block at point `t` is row `5000 t + p` of its array. -/
theorem blk0_row (p : Fin 5000) (k : Fin 64) (r : Fin 50000) (hr : r.val = 5000 * t.val + p.val) :
    (Gen.iblk1 (F := Ideal) V c 0 t : S5000x64.Idx → EReal) (ix2 p k) = (V c main_arg0 : S50000x64.Idx → EReal) (ix2 r k) := by
  obtain ⟨e0, e1⟩ := idx0 t
  show (V c main_arg0 : S50000x64.Idx → EReal) (((cfg1.win 0).blk t).view.emb (ix2 p k)) = _
  refine congrArg _ (funext fun a => Fin.ext ?_)
  match a with
  | ⟨0, _⟩ => show win1_0.index t (0 : Fin 2) * 5000 + 1 * p.val = r.val; rw [e0, hr]; omega
  | ⟨1, _⟩ => show win1_0.index t (1 : Fin 2) * 64 + 1 * k.val = k.val; rw [e1]; omega

theorem blk1_row (p : Fin 5000) (k : Fin 64) (r : Fin 50000) (hr : r.val = 5000 * t.val + p.val) :
    (Gen.iblk1 (F := Ideal) V c 1 t : S5000x64.Idx → EReal) (ix2 p k) = (V c main_v24 : S50000x64.Idx → EReal) (ix2 r k) := by
  obtain ⟨e0, e1⟩ := idx1 t
  show (V c main_v24 : S50000x64.Idx → EReal) (((cfg1.win 1).blk t).view.emb (ix2 p k)) = _
  refine congrArg _ (funext fun a => Fin.ext ?_)
  match a with
  | ⟨0, _⟩ => show win1_1.index t (0 : Fin 2) * 5000 + 1 * p.val = r.val; rw [e0, hr]; omega
  | ⟨1, _⟩ => show win1_1.index t (1 : Fin 2) * 64 + 1 * k.val = k.val; rw [e1]; omega

/-- A window on its one block holds its whole array. -/
theorem blk2_eq : (Gen.iblk1 (F := Ideal) V c 2 t : S64x128.Idx → EReal) = V c main_v25 := by
  obtain ⟨e0, e1⟩ := idx2 t
  funext i
  show (V c main_v25 : S64x128.Idx → EReal) (((cfg1.win 2).blk t).view.emb i) = _
  refine congrArg _ (funext fun a => Fin.ext ?_)
  match a with
  | ⟨0, _⟩ => show win1_2.index t (0 : Fin 2) * 64 + 1 * (i 0).val = (i 0).val; rw [e0]; omega
  | ⟨1, _⟩ => show win1_2.index t (1 : Fin 2) * 128 + 1 * (i 1).val = (i 1).val; rw [e1]; omega

theorem blk3_eq : (Gen.iblk1 (F := Ideal) V c 3 t : S64x128.Idx → EReal) = V c main_v26 := by
  obtain ⟨e0, e1⟩ := idx3 t
  funext i
  show (V c main_v26 : S64x128.Idx → EReal) (((cfg1.win 3).blk t).view.emb i) = _
  refine congrArg _ (funext fun a => Fin.ext ?_)
  match a with
  | ⟨0, _⟩ => show win1_3.index t (0 : Fin 2) * 64 + 1 * (i 0).val = (i 0).val; rw [e0]; omega
  | ⟨1, _⟩ => show win1_3.index t (1 : Fin 2) * 128 + 1 * (i 1).val = (i 1).val; rw [e1]; omega

theorem blk4_eq : (Gen.iblk1 (F := Ideal) V c 4 t : S128.Idx → EReal) = V c main_arg12 := by
  have e0 := idx4 t
  funext i
  show (V c main_arg12 : S128.Idx → EReal) (((cfg1.win 4).blk t).view.emb i) = _
  refine congrArg _ (funext fun a => Fin.ext ?_)
  match a with
  | ⟨0, _⟩ => show win1_4.index t (0 : Fin 1) * 128 + 1 * (i 0).val = (i 0).val; rw [e0]; omega

theorem blk5_eq : (Gen.iblk1 (F := Ideal) V c 5 t : S128x128.Idx → EReal) = V c main_arg13 := by
  obtain ⟨e0, e1⟩ := idx5 t
  funext i
  show (V c main_arg13 : S128x128.Idx → EReal) (((cfg1.win 5).blk t).view.emb i) = _
  refine congrArg _ (funext fun a => Fin.ext ?_)
  match a with
  | ⟨0, _⟩ => show win1_5.index t (0 : Fin 2) * 128 + 1 * (i 0).val = (i 0).val; rw [e0]; omega
  | ⟨1, _⟩ => show win1_5.index t (1 : Fin 2) * 128 + 1 * (i 1).val = (i 1).val; rw [e1]; omega

theorem blk6_eq : (Gen.iblk1 (F := Ideal) V c 6 t : S128.Idx → EReal) = V c main_arg14 := by
  have e0 := idx6 t
  funext i
  show (V c main_arg14 : S128.Idx → EReal) (((cfg1.win 6).blk t).view.emb i) = _
  refine congrArg _ (funext fun a => Fin.ext ?_)
  match a with
  | ⟨0, _⟩ => show win1_6.index t (0 : Fin 1) * 128 + 1 * (i 0).val = (i 0).val; rw [e0]; omega

theorem blk7_eq : (Gen.iblk1 (F := Ideal) V c 7 t : S128x64.Idx → EReal) = V c main_arg15 := by
  obtain ⟨e0, e1⟩ := idx7 t
  funext i
  show (V c main_arg15 : S128x64.Idx → EReal) (((cfg1.win 7).blk t).view.emb i) = _
  refine congrArg _ (funext fun a => Fin.ext ?_)
  match a with
  | ⟨0, _⟩ => show win1_7.index t (0 : Fin 2) * 128 + 1 * (i 0).val = (i 0).val; rw [e0]; omega
  | ⟨1, _⟩ => show win1_7.index t (1 : Fin 2) * 64 + 1 * (i 1).val = (i 1).val; rw [e1]; omega

theorem blk8_eq : (Gen.iblk1 (F := Ideal) V c 8 t : S64.Idx → EReal) = V c main_arg16 := by
  have e0 := idx8 t
  funext i
  show (V c main_arg16 : S64.Idx → EReal) (((cfg1.win 8).blk t).view.emb i) = _
  refine congrArg _ (funext fun a => Fin.ext ?_)
  match a with
  | ⟨0, _⟩ => show win1_8.index t (0 : Fin 1) * 64 + 1 * (i 0).val = (i 0).val; rw [e0]; omega

theorem blk9_eq : (Gen.iblk1 (F := Ideal) V c 9 t : S64.Idx → EReal) = V c main_arg17 := by
  have e0 := idx9 t
  funext i
  show (V c main_arg17 : S64.Idx → EReal) (((cfg1.win 9).blk t).view.emb i) = _
  refine congrArg _ (funext fun a => Fin.ext ?_)
  match a with
  | ⟨0, _⟩ => show win1_9.index t (0 : Fin 1) * 64 + 1 * (i 0).val = (i 0).val; rw [e0]; omega

theorem blk10_eq : (Gen.iblk1 (F := Ideal) V c 10 t : S64.Idx → EReal) = V c main_arg18 := by
  have e0 := idx10 t
  funext i
  show (V c main_arg18 : S64.Idx → EReal) (((cfg1.win 10).blk t).view.emb i) = _
  refine congrArg _ (funext fun a => Fin.ext ?_)
  match a with
  | ⟨0, _⟩ => show win1_10.index t (0 : Fin 1) * 64 + 1 * (i 0).val = (i 0).val; rw [e0]; omega

/-- What point `t` writes back is block `t` of the update function of the whole arrays. -/
theorem flushed_eq :
    (Gen.dat1 (F := Ideal) V c).flushed 11 t
      = ((cfg1.win 11).blk t).view.read (Elt Ideal)
          (EdgeConv.updF 50000 (V c main_arg0) (V c main_v24) (V c main_v25) (V c main_v26)
            (V c main_arg12) (V c main_arg13) (V c main_arg14) (V c main_arg15) (V c main_arg16) (V c main_arg17) (V c main_arg18)) := by
  show (cfg1.win 11).cut (grid1.coords t) ((Gen.dat1 (F := Ideal) V c).after 11 t) = _
  rw [Gen.after1_11]
  refine funext fun (y : S5000x64.Idx) => ?_
  obtain ⟨p, q, rfl⟩ : ∃ (p : Fin 5000) (q : Fin 64), y = ix2 p q := ⟨y 0, y 1, eq_ix2 y⟩
  have ht : t.val < 10 := lt_of_lt_of_eq t.isLt Gen.N_1
  obtain ⟨e0, e1⟩ := idx11 t
  have hemb : ((cfg1.win 11).blk t).view.emb (ix2 p q)
      = (ix2 (⟨5000 * t.val + p.val, by have := p.isLt; omega⟩ : Fin 50000) q : S50000x64.Idx) := by
    funext a
    apply Fin.ext
    match a with
    | ⟨0, _⟩ => show win1_11.index t (0 : Fin 2) * 5000 + 1 * p.val = 5000 * t.val + p.val; rw [e0]; omega
    | ⟨1, _⟩ => show win1_11.index t (1 : Fin 2) * 64 + 1 * q.val = q.val; rw [e1]; omega
  show Gen.out1_11 (F := Ideal) (Gen.iblk1 V c 0 t) (Gen.iblk1 V c 1 t) (Gen.iblk1 V c 2 t) (Gen.iblk1 V c 3 t) (Gen.iblk1 V c 4 t)
      (Gen.iblk1 V c 5 t) (Gen.iblk1 V c 6 t) (Gen.iblk1 V c 7 t) (Gen.iblk1 V c 8 t) (Gen.iblk1 V c 9 t) (Gen.iblk1 V c 10 t) (ix2 p q)
    = EdgeConv.updF 50000 (V c main_arg0) (V c main_v24) (V c main_v25) (V c main_v26)
        (V c main_arg12) (V c main_arg13) (V c main_arg14) (V c main_arg15) (V c main_arg16) (V c main_arg17) (V c main_arg18)
        (((cfg1.win 11).blk t).view.emb (ix2 p q))
  rw [hemb]
  refine (congrFun (block_eq (Gen.iblk1 V c 0 t) (Gen.iblk1 V c 1 t) (Gen.iblk1 V c 2 t) (Gen.iblk1 V c 3 t) (Gen.iblk1 V c 4 t)
      (Gen.iblk1 V c 5 t) (Gen.iblk1 V c 6 t) (Gen.iblk1 V c 7 t) (Gen.iblk1 V c 8 t) (Gen.iblk1 V c 9 t) (Gen.iblk1 V c 10 t)) (ix2 p q)).trans ?_
  exact updF_row_congr 5000 50000 (Gen.iblk1 V c 0 t) (Gen.iblk1 V c 1 t) (V c main_arg0) (V c main_v24)
    (Gen.iblk1 V c 2 t) (Gen.iblk1 V c 3 t) (V c main_v25) (V c main_v26) (Gen.iblk1 V c 4 t) (V c main_arg12)
    (Gen.iblk1 V c 5 t) (V c main_arg13) (Gen.iblk1 V c 6 t) (V c main_arg14) (Gen.iblk1 V c 7 t) (V c main_arg15)
    (Gen.iblk1 V c 8 t) (V c main_arg16) (Gen.iblk1 V c 9 t) (V c main_arg17) (Gen.iblk1 V c 10 t) (V c main_arg18)
    p ⟨5000 * t.val + p.val, by have := p.isLt; omega⟩ q
    (fun k => blk0_row V c t p k _ rfl) (fun k => blk1_row V c t p k _ rfl)
    (blk2_eq V c t) (blk3_eq V c t) (blk4_eq V c t) (blk5_eq V c t) (blk6_eq V c t) (blk7_eq V c t) (blk8_eq V c t)
    (blk9_eq V c t) (blk10_eq V c t)

end Blocks

/-- An index of the array is in point `t`'s block iff each coordinate is in the block's range on its axis. -/
theorem mem_blk (t : Fin cfg1.N) (i : S50000x64.Idx) :
    i ∈ ((cfg1.win 11).blk t).view.set ↔ ∀ a : Fin 2, win1_11.index t a * S5000x64.size a ≤ (i a).val
      ∧ (i a).val < win1_11.index t a * S5000x64.size a + S5000x64.size a := by
  show i ∈ ((View.whole main_v27).slice (win1_11.rect t)).set ↔ _
  rw [View.set_slice_whole, Rect.mem_set_unit]
  exact Iff.rfl

/-- The whole output array after the region: the update function of the whole input arrays. Row `r` is written back
    by point `r / 5000`. -/
theorem array_eq (V : (c : Dev nD) → (b : Ref sig .tc) → Buf (Elt Ideal) ((c : Thread nD τ).loc b)) (c : Dev nD) :
    (Gen.dat1 (F := Ideal) V c).arrAt 11 cfg1.N
      = EdgeConv.updF 50000 (V c main_arg0) (V c main_v24) (V c main_v25) (V c main_v26)
          (V c main_arg12) (V c main_arg13) (V c main_arg14) (V c main_arg15) (V c main_arg16) (V c main_arg17) (V c main_arg18) :=
  (Gen.dat1 (F := Ideal) V c).arrAt_eq_of_cover 11
    (EdgeConv.updF 50000 (V c main_arg0) (V c main_v24) (V c main_v25) (V c main_v26)
      (V c main_arg12) (V c main_arg13) (V c main_arg14) (V c main_arg15) (V c main_arg16) (V c main_arg17) (V c main_arg18))
    (fun t _ => flushed_eq V c t) fun i => by
      have hi0 : (i 0).val < 50000 := (i 0).isLt
      have hi1 : (i 1).val < 64 := (i 1).isLt
      have hN : (i 0).val / 5000 < cfg1.N := lt_of_lt_of_eq (show (i 0).val / 5000 < 10 by omega) Gen.N_1.symm
      obtain ⟨e0, e1⟩ := idx11 ⟨(i 0).val / 5000, hN⟩
      refine ⟨⟨(i 0).val / 5000, hN⟩, Gen.flush1_11 _, ?_⟩
      refine (mem_blk ⟨(i 0).val / 5000, hN⟩ i).mpr ?_
      intro a
      match a with
      | ⟨0, _⟩ =>
        show win1_11.index ⟨(i 0).val / 5000, hN⟩ (0 : Fin 2) * 5000 ≤ (i 0).val
          ∧ (i 0).val < win1_11.index ⟨(i 0).val / 5000, hN⟩ (0 : Fin 2) * 5000 + 5000
        rw [e0]
        show (i 0).val / 5000 * 5000 ≤ (i 0).val ∧ (i 0).val < (i 0).val / 5000 * 5000 + 5000
        omega
      | ⟨1, _⟩ =>
        show win1_11.index ⟨(i 0).val / 5000, hN⟩ (1 : Fin 2) * 64 ≤ (i 1).val
          ∧ (i 1).val < win1_11.index ⟨(i 0).val / 5000, hN⟩ (1 : Fin 2) * 64 + 64
        rw [e1]
        omega

end Cert.KernelIdeal.UpdValue

end
-- ==== Proof.RefUpd.lean ====
/-
  The second half of the reference program, read entry by entry.

  After the messages have been added up node by node, the reference joins every node's row h(p) (64 entries) with its
  aggregated row agg(p) (64 entries) into one row of 128 entries, and sends that row through the update network:
  three affine layers with relu between them, a layer normalisation of the 64 outputs, and h(p) added at the end.
  A product of the joined row with the whole 128 x 128 weight is the product of h(p) with the weight's rows 0..63
  plus the product of agg(p) with its rows 64..127: the sum over the 128 joined positions splits into its two halves.
  That is the only algebra here; everything else is reading each operation at an index.
-/
import proofs.«149934_j74174085202606_1_alg».proof.Proof.Gen.ReferenceIdeal.Read
import proofs.«149934_j74174085202606_1_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

/-! ## Where each operation reads its operands, at an entry (p, q) -/

/-- The entry (p, k) of a two-axis index function, and the entry k of a one-axis one, by cases on the axis. -/
theorem lidx61_eq (p : Fin 50000) (q k : Fin 128) : lidx_main_v61 (ix2 p q) k = ix2 p k :=
  funext fun a => match a with | ⟨0, _⟩ => rfl | ⟨1, _⟩ => rfl
theorem ridx61_eq (p : Fin 50000) (q k : Fin 128) : ridx_main_v61 (ix2 p q) k = ix2 k q :=
  funext fun a => match a with | ⟨0, _⟩ => rfl | ⟨1, _⟩ => rfl
theorem bias63_eq (p : Fin 50000) (q : Fin 128) : idx_main_v62 (idx_main_v63 (ix2 p q)) = ix1 q :=
  funext fun a => match a with | ⟨0, _⟩ => rfl
theorem lidx66_eq (p : Fin 50000) (q k : Fin 128) : lidx_main_v66 (ix2 p q) k = ix2 p k :=
  funext fun a => match a with | ⟨0, _⟩ => rfl | ⟨1, _⟩ => rfl
theorem ridx66_eq (p : Fin 50000) (q k : Fin 128) : ridx_main_v66 (ix2 p q) k = ix2 k q :=
  funext fun a => match a with | ⟨0, _⟩ => rfl | ⟨1, _⟩ => rfl
theorem bias68_eq (p : Fin 50000) (q : Fin 128) : idx_main_v67 (idx_main_v68 (ix2 p q)) = ix1 q :=
  funext fun a => match a with | ⟨0, _⟩ => rfl
theorem lidx71_eq (p : Fin 50000) (j : Fin 64) (k : Fin 128) : lidx_main_v71 (ix2 p j) k = ix2 p k :=
  funext fun a => match a with | ⟨0, _⟩ => rfl | ⟨1, _⟩ => rfl
theorem ridx71_eq (p : Fin 50000) (j : Fin 64) (k : Fin 128) : ridx_main_v71 (ix2 p j) k = ix2 k j :=
  funext fun a => match a with | ⟨0, _⟩ => rfl | ⟨1, _⟩ => rfl
theorem bias73_eq (p : Fin 50000) (j : Fin 64) : idx_main_v72 (idx_main_v73 (ix2 p j)) = ix1 j :=
  funext fun a => match a with | ⟨0, _⟩ => rfl
theorem gain94_eq (p : Fin 50000) (j : Fin 64) : idx_main_v93 (idx_main_v94 (ix2 p j)) = ix1 j :=
  funext fun a => match a with | ⟨0, _⟩ => rfl
theorem shift97_eq (p : Fin 50000) (j : Fin 64) : idx_main_v96 (idx_main_v97 (ix2 p j)) = ix1 j :=
  funext fun a => match a with | ⟨0, _⟩ => rfl
/-- The three copies of a per-row scalar along the row all read the row's one entry (p, 0). -/
theorem col79_eq (p : Fin 50000) (j : Fin 64) : idx_main_v79 (ix2 p j) = ix2 p (0 : Fin 1) :=
  funext fun a => match a with | ⟨0, _⟩ => rfl | ⟨1, _⟩ => rfl
theorem col86_eq (p : Fin 50000) (j : Fin 64) : idx_main_v86 (ix2 p j) = ix2 p (0 : Fin 1) :=
  funext fun a => match a with | ⟨0, _⟩ => rfl | ⟨1, _⟩ => rfl
theorem col91_eq (p : Fin 50000) (j : Fin 64) : idx_main_v91 (ix2 p j) = ix2 p (0 : Fin 1) :=
  funext fun a => match a with | ⟨0, _⟩ => rfl | ⟨1, _⟩ => rfl
/-- A row sum written to (p, 0) runs over the entries (p, k) of its operand. -/
theorem row75_eq (p : Fin 50000) (k : Fin 64) : idx_main_v75 (idx_main_v76 (ix2 p (0 : Fin 1))) k = ix2 p k :=
  funext fun a => match a with | ⟨0, _⟩ => rfl | ⟨1, _⟩ => rfl
theorem row82_eq (p : Fin 50000) (k : Fin 64) : idx_main_v82 (idx_main_v83 (ix2 p (0 : Fin 1))) k = ix2 p k :=
  funext fun a => match a with | ⟨0, _⟩ => rfl | ⟨1, _⟩ => rfl

section
variable (x0 : FVec Ideal S50000x64 .f32) (x1 : IVec S2x400000 32) (x2 : FVec Ideal S400000x32 .f32) (x3 : FVec Ideal S160x128 .f32)
  (x4 : FVec Ideal S128 .f32) (x5 : FVec Ideal S128x128 .f32) (x6 : FVec Ideal S128 .f32) (x7 : FVec Ideal S128x64 .f32) (x8 x9 x10 : FVec Ideal S64 .f32)
  (x11 : FVec Ideal S128x128 .f32) (x12 : FVec Ideal S128 .f32) (x13 : FVec Ideal S128x128 .f32) (x14 : FVec Ideal S128 .f32)
  (x15 : FVec Ideal S128x64 .f32) (x16 x17 x18 : FVec Ideal S64 .f32)

/-! ## The joined row -/

/-- Positions 0..63 of the joined row are the node's own row. -/
theorem cat_left (p : Fin 50000) (k : Fin 64) :
    val_main_v60 (F := Ideal) x0 x1 x2 x3 x4 x5 x6 x7 x8 x9 x10 (ix2 p ⟨k.val, by have := k.isLt; omega⟩) = x0 (ix2 p k) := by
  unfold val_main_v60
  exact concatenate_pair_apply_left (1 : Fin S50000x128.rank) x0 _ concatenates_S50000x64_S50000x64_S50000x128_d1 _ rfl (ix2 p k)
    (fun b => match b with | ⟨0, _⟩ => rfl | ⟨1, _⟩ => rfl)

/-- Positions 64..127 of the joined row are the node's aggregated messages. -/
theorem cat_right (p : Fin 50000) (k : Fin 64) :
    val_main_v60 (F := Ideal) x0 x1 x2 x3 x4 x5 x6 x7 x8 x9 x10 (ix2 p ⟨64 + k.val, by have := k.isLt; omega⟩) = val_main_v59 (F := Ideal) x0 x1 x2 x3 x4 x5 x6 x7 x8 x9 x10 (ix2 p k) := by
  unfold val_main_v60
  exact concatenate_pair_apply_right (1 : Fin S50000x128.rank) x0 _ concatenates_S50000x64_S50000x64_S50000x128_d1 _ rfl rfl (ix2 p k)
    (fun b hb => match b, hb with | ⟨0, _⟩, _ => rfl | ⟨1, _⟩, hb => absurd rfl hb)
    (by show k.val + 64 = 64 + k.val; omega)

/-! ## The first layer -/

/-- Row p of the first layer before its relu: the node's row against the weight's rows 0..63, the aggregated row
    against its rows 64..127, and the bias. -/
abbrev pre1 (p : Fin 50000) : Fin 128 → EReal :=
  EdgeConv.updPre (fun k => x0 (ix2 p k)) (fun k => val_main_v59 (F := Ideal) x0 x1 x2 x3 x4 x5 x6 x7 x8 x9 x10 (ix2 p k))
    (EdgeConv.rowsFrom 64 0 (by omega) x11) (EdgeConv.rowsFrom 64 64 (by omega) x11) x12

theorem v64_row (p : Fin 50000) (q : Fin 128) :
    val_main_v64 (F := Ideal) x0 x1 x2 x3 x4 x5 x6 x7 x8 x9 x10 x11 x12 (ix2 p q) = pre1 x0 x1 x2 x3 x4 x5 x6 x7 x8 x9 x10 x11 x12 p q := by
  rw [val_main_v64_apply, val_main_v61_apply, val_main_v63_apply, val_main_v62_apply, bias63_eq]
  simp only [lidx61_eq, ridx61_eq]
  rw [EdgeConv.sum_split2]
  simp only [cat_left, cat_right]
  rw [Ideal.addf_def]
  unfold pre1 EdgeConv.updPre
  simp only [EdgeConv.rowsFrom_apply, Nat.zero_add]

/-- Row p after the first relu. -/
theorem v65_row (p : Fin 50000) (q : Fin 128) :
    val_main_v65 (F := Ideal) x0 x1 x2 x3 x4 x5 x6 x7 x8 x9 x10 x11 x12 (ix2 p q) = EdgeConv.relu (pre1 x0 x1 x2 x3 x4 x5 x6 x7 x8 x9 x10 x11 x12 p q) := by
  rw [val_main_v65_apply, v64_row, val_main_call2_v0_apply, val_main_call2_cst_apply, Ideal.maximumf_def]
  rfl

/-! ## The second and third layers -/

/-- Row p of the second layer before its relu. -/
theorem v69_row (p : Fin 50000) (q : Fin 128) :
    val_main_v69 (F := Ideal) x0 x1 x2 x3 x4 x5 x6 x7 x8 x9 x10 x11 x12 x13 x14 (ix2 p q) = EdgeConv.dense (fun k => EdgeConv.relu (pre1 x0 x1 x2 x3 x4 x5 x6 x7 x8 x9 x10 x11 x12 p k)) x13 x14 q := by
  rw [val_main_v69_apply, val_main_v66_apply, val_main_v68_apply, val_main_v67_apply, bias68_eq]
  simp only [lidx66_eq, ridx66_eq, v65_row]
  rfl

/-- Row p after the second relu. -/
theorem v70_row (p : Fin 50000) (q : Fin 128) :
    val_main_v70 (F := Ideal) x0 x1 x2 x3 x4 x5 x6 x7 x8 x9 x10 x11 x12 x13 x14 (ix2 p q)
      = EdgeConv.relu (EdgeConv.dense (fun k => EdgeConv.relu (pre1 x0 x1 x2 x3 x4 x5 x6 x7 x8 x9 x10 x11 x12 p k)) x13 x14 q) := by
  rw [val_main_v70_apply, v69_row, val_main_call3_v0_apply, val_main_call3_cst_apply, Ideal.maximumf_def]
  rfl

/-- Row p of the third layer: the 64 entries that are normalised. -/
abbrev out3 (p : Fin 50000) : Fin 64 → EReal :=
  EdgeConv.dense (fun k => EdgeConv.relu (EdgeConv.dense (fun k' => EdgeConv.relu (pre1 x0 x1 x2 x3 x4 x5 x6 x7 x8 x9 x10 x11 x12 p k')) x13 x14 k)) x15 x16

theorem v74_row (p : Fin 50000) (j : Fin 64) :
    val_main_v74 (F := Ideal) x0 x1 x2 x3 x4 x5 x6 x7 x8 x9 x10 x11 x12 x13 x14 x15 x16 (ix2 p j) = out3 x0 x1 x2 x3 x4 x5 x6 x7 x8 x9 x10 x11 x12 x13 x14 x15 x16 p j := by
  rw [val_main_v74_apply, val_main_v71_apply, val_main_v73_apply, val_main_v72_apply, bias73_eq]
  simp only [lidx71_eq, ridx71_eq, v70_row]
  rfl

/-! ## The normalisation, over the third layer's row as it stands -/

/-- The mean of row p: the row's sum, started from the constant zero, over 64. -/
theorem v78_row (p : Fin 50000) :
    val_main_v78 (F := Ideal) x0 x1 x2 x3 x4 x5 x6 x7 x8 x9 x10 x11 x12 x13 x14 x15 x16 (ix2 p (0 : Fin 1)) = EdgeConv.mean64 (fun k => val_main_v74 (F := Ideal) x0 x1 x2 x3 x4 x5 x6 x7 x8 x9 x10 x11 x12 x13 x14 x15 x16 (ix2 p k)) := by
  rw [val_main_v78_apply, val_main_v76_apply, val_main_v75_apply, val_main_v77_apply, val_main_cst_9_apply, val_main_cst_8_apply]
  simp only [row75_eq, Ideal.hostDivf_def, Ideal.ofBits_def, Ideal.ofBits_zero_f32, zero_add]
  rfl

/-- The deviation from the mean, as the variance reads it. -/
theorem v80_row (p : Fin 50000) (j : Fin 64) :
    val_main_v80 (F := Ideal) x0 x1 x2 x3 x4 x5 x6 x7 x8 x9 x10 x11 x12 x13 x14 x15 x16 (ix2 p j)
      = val_main_v74 (F := Ideal) x0 x1 x2 x3 x4 x5 x6 x7 x8 x9 x10 x11 x12 x13 x14 x15 x16 (ix2 p j) - EdgeConv.mean64 (fun k => val_main_v74 (F := Ideal) x0 x1 x2 x3 x4 x5 x6 x7 x8 x9 x10 x11 x12 x13 x14 x15 x16 (ix2 p k)) := by
  rw [val_main_v80_apply, val_main_v79_apply, col79_eq, v78_row, Ideal.subf_def]

/-- The deviation from the mean, as the normalised entry reads it. -/
theorem v87_row (p : Fin 50000) (j : Fin 64) :
    val_main_v87 (F := Ideal) x0 x1 x2 x3 x4 x5 x6 x7 x8 x9 x10 x11 x12 x13 x14 x15 x16 (ix2 p j)
      = val_main_v74 (F := Ideal) x0 x1 x2 x3 x4 x5 x6 x7 x8 x9 x10 x11 x12 x13 x14 x15 x16 (ix2 p j) - EdgeConv.mean64 (fun k => val_main_v74 (F := Ideal) x0 x1 x2 x3 x4 x5 x6 x7 x8 x9 x10 x11 x12 x13 x14 x15 x16 (ix2 p k)) := by
  rw [val_main_v87_apply, val_main_v86_apply, col86_eq, v78_row, Ideal.subf_def]

/-- The mean of the squared deviations of row p. -/
theorem v85_row (p : Fin 50000) :
    val_main_v85 (F := Ideal) x0 x1 x2 x3 x4 x5 x6 x7 x8 x9 x10 x11 x12 x13 x14 x15 x16 (ix2 p (0 : Fin 1))
      = EdgeConv.mean64 (fun k => (val_main_v74 (F := Ideal) x0 x1 x2 x3 x4 x5 x6 x7 x8 x9 x10 x11 x12 x13 x14 x15 x16 (ix2 p k) - EdgeConv.mean64 (fun k' => val_main_v74 (F := Ideal) x0 x1 x2 x3 x4 x5 x6 x7 x8 x9 x10 x11 x12 x13 x14 x15 x16 (ix2 p k')))
          * (val_main_v74 (F := Ideal) x0 x1 x2 x3 x4 x5 x6 x7 x8 x9 x10 x11 x12 x13 x14 x15 x16 (ix2 p k) - EdgeConv.mean64 (fun k' => val_main_v74 (F := Ideal) x0 x1 x2 x3 x4 x5 x6 x7 x8 x9 x10 x11 x12 x13 x14 x15 x16 (ix2 p k')))) := by
  rw [val_main_v85_apply, val_main_v83_apply, val_main_v82_apply, val_main_v84_apply, val_main_cst_11_apply, val_main_cst_10_apply]
  simp only [row82_eq, val_main_v81_apply, v80_row, Ideal.mulf_def, Ideal.hostDivf_def, Ideal.ofBits_def, Ideal.ofBits_zero_f32, zero_add]
  rfl

/-- The normalised row, scaled and shifted. -/
theorem v98_row (p : Fin 50000) (j : Fin 64) :
    val_main_v98 (F := Ideal) x0 x1 x2 x3 x4 x5 x6 x7 x8 x9 x10 x11 x12 x13 x14 x15 x16 x17 x18 (ix2 p j) = EdgeConv.layerNorm (fun k => val_main_v74 (F := Ideal) x0 x1 x2 x3 x4 x5 x6 x7 x8 x9 x10 x11 x12 x13 x14 x15 x16 (ix2 p k)) x17 x18 j := by
  rw [val_main_v98_apply, val_main_v95_apply, val_main_v92_apply, v87_row, val_main_v91_apply, col91_eq, val_main_v90_apply,
    val_main_v89_apply, v85_row, val_main_v88_apply, val_main_cst_12_apply, val_main_v94_apply, val_main_v93_apply, gain94_eq,
    val_main_v97_apply, val_main_v96_apply, shift97_eq]
  rfl

end

/-! ## The whole update -/

/-- The reference's result is the update of every node's row by its own row and its aggregated messages. -/
theorem upd_eq (x0 : FVec Ideal S50000x64 .f32) (x1 : IVec S2x400000 32) (x2 : FVec Ideal S400000x32 .f32) (x3 : FVec Ideal S160x128 .f32) (x4 : FVec Ideal S128 .f32) (x5 : FVec Ideal S128x128 .f32) (x6 : FVec Ideal S128 .f32) (x7 : FVec Ideal S128x64 .f32) (x8 x9 x10 : FVec Ideal S64 .f32)
    (x11 : FVec Ideal S128x128 .f32) (x12 : FVec Ideal S128 .f32) (x13 : FVec Ideal S128x128 .f32) (x14 : FVec Ideal S128 .f32) (x15 : FVec Ideal S128x64 .f32) (x16 x17 x18 : FVec Ideal S64 .f32) :
    Read.val_main_v99 (F := Ideal) x0 x1 x2 x3 x4 x5 x6 x7 x8 x9 x10 x11 x12 x13 x14 x15 x16 x17 x18
      = EdgeConv.updF 50000 x0 (Read.val_main_v59 (F := Ideal) x0 x1 x2 x3 x4 x5 x6 x7 x8 x9 x10)
          (EdgeConv.rowsFrom 64 0 (by omega) x11) (EdgeConv.rowsFrom 64 64 (by omega) x11) x12 x13 x14 x15 x16 x17 x18 := by
  funext i
  obtain ⟨p, j, rfl⟩ : ∃ (p : Fin 50000) (j : Fin 64), i = ix2 p j := ⟨i 0, i 1, eq_ix2 i⟩
  rw [val_main_v99_apply, v98_row, EdgeConv.updF_apply, Ideal.addf_def]
  have h : (fun k => val_main_v74 (F := Ideal) x0 x1 x2 x3 x4 x5 x6 x7 x8 x9 x10 x11 x12 x13 x14 x15 x16 (ix2 p k)) = out3 x0 x1 x2 x3 x4 x5 x6 x7 x8 x9 x10 x11 x12 x13 x14 x15 x16 p := funext (v74_row x0 x1 x2 x3 x4 x5 x6 x7 x8 x9 x10 x11 x12 x13 x14 x15 x16 p)
  rw [h]
  rfl

end Cert.ReferenceIdeal.RefValue

end
-- ==== Proof.RefMsg.lean ====
/-
  The reference program's message network, read entry by entry on the extended reals.

  For every edge p the reference joins the start node's row, the end node's row and the edge's attributes into
  one row of 160 entries, sends it through three affine layers (160 → 128 → 128 → 64) with max(·, 0) after
  the first two, and normalises the resulting row of 64 entries. Entry (p, j) of its result is the row-level
  expression `EdgeConv.tail (EdgeConv.msgPre …)`: the sum over the 160 joined entries splits into the three
  parts 64 + 64 + 32, each part against its own rows of the first weight; the two sums that normalise a row start
  from the constant zero, which adds nothing.
-/
import proofs.«149934_j74174085202606_1_alg».proof.Proof.Gen.ReferenceIdeal.Read
import proofs.«149934_j74174085202606_1_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

variable (x0 : FVec Ideal S50000x64 .f32) (x1 : IVec S2x400000 32) (x2 : FVec Ideal S400000x32 .f32)
  (x3 : FVec Ideal S160x128 .f32) (x4 : FVec Ideal S128 .f32) (x5 : FVec Ideal S128x128 .f32) (x6 : FVec Ideal S128 .f32)
  (x7 : FVec Ideal S128x64 .f32) (x8 x9 x10 : FVec Ideal S64 .f32)

/-! ## The joined row: columns 0–63 are the start node's row, 64–127 the end node's, 128–159 the attributes -/

theorem v18_left (p : Fin 400000) (k : Fin 64) :
    val_main_v18 (F := Ideal) x0 x1 x2 (ix2 p (⟨k.val, by have := k.isLt; omega⟩ : Fin 160))
      = val_main_v10 (F := Ideal) x0 x1 (ix2 p k) := by
  unfold val_main_v18
  exact concatenate_apply_piece (1 : Fin S400000x160.rank) _ _ _ 0 (by simp) S400000x64 _ rfl rfl 0 rfl (ix2 p k)
    (fun b => match b with
      | ⟨0, _⟩ => fun _ => rfl
      | ⟨1, _⟩ => fun hb => (hb (Fin.ext rfl)).elim)
    (Nat.zero_add _)

theorem v18_mid (p : Fin 400000) (k : Fin 64) :
    val_main_v18 (F := Ideal) x0 x1 x2 (ix2 p (⟨64 + k.val, by have := k.isLt; omega⟩ : Fin 160))
      = val_main_v17 (F := Ideal) x0 x1 (ix2 p k) := by
  unfold val_main_v18
  exact concatenate_apply_piece (1 : Fin S400000x160.rank) _ _ _ 1 (by simp) S400000x64 _ rfl rfl 64 rfl (ix2 p k)
    (fun b => match b with
      | ⟨0, _⟩ => fun _ => rfl
      | ⟨1, _⟩ => fun hb => (hb (Fin.ext rfl)).elim)
    rfl

theorem v18_right (p : Fin 400000) (k : Fin 32) :
    val_main_v18 (F := Ideal) x0 x1 x2 (ix2 p (⟨128 + k.val, by have := k.isLt; omega⟩ : Fin 160))
      = x2 (ix2 p k) := by
  unfold val_main_v18
  exact concatenate_apply_piece (1 : Fin S400000x160.rank) _ _ _ 2 (by simp) S400000x32 _ rfl rfl 128 rfl (ix2 p k)
    (fun b => match b with
      | ⟨0, _⟩ => fun _ => rfl
      | ⟨1, _⟩ => fun hb => (hb (Fin.ext rfl)).elim)
    rfl

/-- The first 64 rows of the first weight, spelt without the offset zero. -/
theorem rowsFrom_zero_apply (k : Fin 64) (q : Fin 128) :
    EdgeConv.rowsFrom 64 0 (by omega) x3 (ix2 k q) = x3 (ix2 (⟨k.val, by have := k.isLt; omega⟩ : Fin 160) q) := by
  rw [EdgeConv.rowsFrom_apply]
  exact congrArg (fun r : Fin 160 => x3 (ix2 r q)) (Fin.ext (Nat.zero_add _))

/-! ## The first layer's row before its max(·, 0) -/

theorem v22_row (p : Fin 400000) (q : Fin 128) :
    val_main_v22 (F := Ideal) x0 x1 x2 x3 x4 (ix2 p q)
      = EdgeConv.msgPre (fun k => val_main_v10 (F := Ideal) x0 x1 (ix2 p k))
          (fun k => val_main_v17 (F := Ideal) x0 x1 (ix2 p k)) (fun k => x2 (ix2 p k))
          (EdgeConv.rowsFrom 64 0 (by omega) x3) (EdgeConv.rowsFrom 64 64 (by omega) x3)
          (EdgeConv.rowsFrom 32 128 (by omega) x3) x4 q := by
  have hl : ∀ k : Fin 160, lidx_main_v19 (ix2 p q) k = ix2 p k := fun k =>
    funext fun a => by match a with | ⟨0, _⟩ => rfl | ⟨1, _⟩ => rfl
  have hr : ∀ k : Fin 160, ridx_main_v19 (ix2 p q) k = ix2 k q := fun k =>
    funext fun a => by match a with | ⟨0, _⟩ => rfl | ⟨1, _⟩ => rfl
  have hb : idx_main_v20 (idx_main_v21 (ix2 p q)) = ix1 q :=
    funext fun a => by match a with | ⟨0, _⟩ => rfl
  rw [val_main_v22_apply, val_main_v19_apply, val_main_v21_apply, val_main_v20_apply, hb]
  simp only [hl, hr]
  rw [EdgeConv.sum_split3]
  unfold EdgeConv.msgPre
  refine congrArg₂ (· + ·) (congrArg₂ (· + ·) (congrArg₂ (· + ·) ?_ ?_) ?_) rfl
  · refine Finset.sum_congr rfl fun k _ => ?_
    rw [v18_left, rowsFrom_zero_apply]
  · refine Finset.sum_congr rfl fun k _ => ?_
    rw [v18_mid, EdgeConv.rowsFrom_apply]
  · refine Finset.sum_congr rfl fun k _ => ?_
    rw [v18_right, EdgeConv.rowsFrom_apply]

/-! ## Layers two and three -/

theorem v23_row (p : Fin 400000) (q : Fin 128) :
    val_main_v23 (F := Ideal) x0 x1 x2 x3 x4 (ix2 p q)
      = EdgeConv.relu (val_main_v22 (F := Ideal) x0 x1 x2 x3 x4 (ix2 p q)) := by
  rw [val_main_v23_apply, val_main_call0_v0_apply, val_main_call0_cst_apply]
  rfl

theorem v27_row (p : Fin 400000) (q : Fin 128) :
    val_main_v27 (F := Ideal) x0 x1 x2 x3 x4 x5 x6 (ix2 p q)
      = EdgeConv.dense (fun k => EdgeConv.relu (val_main_v22 (F := Ideal) x0 x1 x2 x3 x4 (ix2 p k))) x5 x6 q := by
  have hl : ∀ k : Fin 128, lidx_main_v24 (ix2 p q) k = ix2 p k := fun k =>
    funext fun a => by match a with | ⟨0, _⟩ => rfl | ⟨1, _⟩ => rfl
  have hr : ∀ k : Fin 128, ridx_main_v24 (ix2 p q) k = ix2 k q := fun k =>
    funext fun a => by match a with | ⟨0, _⟩ => rfl | ⟨1, _⟩ => rfl
  have hb : idx_main_v25 (idx_main_v26 (ix2 p q)) = ix1 q :=
    funext fun a => by match a with | ⟨0, _⟩ => rfl
  rw [val_main_v27_apply, val_main_v24_apply, val_main_v26_apply, val_main_v25_apply, hb]
  simp only [hl, hr, v23_row]
  rfl

theorem v28_row (p : Fin 400000) (q : Fin 128) :
    val_main_v28 (F := Ideal) x0 x1 x2 x3 x4 x5 x6 (ix2 p q)
      = EdgeConv.relu (val_main_v27 (F := Ideal) x0 x1 x2 x3 x4 x5 x6 (ix2 p q)) := by
  rw [val_main_v28_apply, val_main_call1_v0_apply, val_main_call1_cst_apply]
  rfl

theorem v32_row (p : Fin 400000) (j : Fin 64) :
    val_main_v32 (F := Ideal) x0 x1 x2 x3 x4 x5 x6 x7 x8 (ix2 p j)
      = EdgeConv.dense (fun k => EdgeConv.relu (val_main_v27 (F := Ideal) x0 x1 x2 x3 x4 x5 x6 (ix2 p k))) x7 x8 j := by
  have hl : ∀ k : Fin 128, lidx_main_v29 (ix2 p j) k = ix2 p k := fun k =>
    funext fun a => by match a with | ⟨0, _⟩ => rfl | ⟨1, _⟩ => rfl
  have hr : ∀ k : Fin 128, ridx_main_v29 (ix2 p j) k = ix2 k j := fun k =>
    funext fun a => by match a with | ⟨0, _⟩ => rfl | ⟨1, _⟩ => rfl
  have hb : idx_main_v30 (idx_main_v31 (ix2 p j)) = ix1 j :=
    funext fun a => by match a with | ⟨0, _⟩ => rfl
  rw [val_main_v32_apply, val_main_v29_apply, val_main_v31_apply, val_main_v30_apply, hb]
  simp only [hl, hr, v28_row]
  rfl

/-! ## The normalisation of a row of 64 entries -/

/-- A sum over a row that starts from the constant zero, divided by 64, is the row's mean. -/
theorem mean_read (f : Fin 64 → EReal) :
    Ideal.div (Ideal.ofBits .f32 0x00000000#32 + ∑ k : Fin 64, f k) (Ideal.ofBits .f32 0x42800000#32)
      = EdgeConv.mean64 f := by
  rw [Ideal.ofBits_zero_f32, zero_add]
  rfl

theorem v36_row (p : Fin 400000) (z : Fin 1) :
    val_main_v36 (F := Ideal) x0 x1 x2 x3 x4 x5 x6 x7 x8 (ix2 p z)
      = EdgeConv.mean64 (fun k => val_main_v32 (F := Ideal) x0 x1 x2 x3 x4 x5 x6 x7 x8 (ix2 p k)) := by
  have hi : ∀ k : Fin 64, idx_main_v33 (idx_main_v34 (ix2 p z)) k = ix2 p k := fun k =>
    funext fun a => by match a with | ⟨0, _⟩ => rfl | ⟨1, _⟩ => rfl
  rw [val_main_v36_apply, val_main_v34_apply, val_main_v33_apply, val_main_v35_apply, val_main_cst_3_apply,
    val_main_cst_apply]
  simp only [hi]
  exact mean_read (fun k => val_main_v32 (F := Ideal) x0 x1 x2 x3 x4 x5 x6 x7 x8 (ix2 p k))

/-- An entry less its row's mean (the operand of the squares). -/
theorem v38_row (p : Fin 400000) (k : Fin 64) :
    val_main_v38 (F := Ideal) x0 x1 x2 x3 x4 x5 x6 x7 x8 (ix2 p k)
      = val_main_v32 (F := Ideal) x0 x1 x2 x3 x4 x5 x6 x7 x8 (ix2 p k)
        - EdgeConv.mean64 (fun k' => val_main_v32 (F := Ideal) x0 x1 x2 x3 x4 x5 x6 x7 x8 (ix2 p k')) := by
  have hi : idx_main_v37 (ix2 p k) = ix2 p (⟨0, Nat.one_pos⟩ : Fin 1) :=
    funext fun a => by match a with | ⟨0, _⟩ => rfl | ⟨1, _⟩ => rfl
  rw [val_main_v38_apply, val_main_v37_apply, hi, v36_row]
  rfl

/-- An entry less its row's mean (the operand of the scaling). -/
theorem v45_row (p : Fin 400000) (k : Fin 64) :
    val_main_v45 (F := Ideal) x0 x1 x2 x3 x4 x5 x6 x7 x8 (ix2 p k)
      = val_main_v32 (F := Ideal) x0 x1 x2 x3 x4 x5 x6 x7 x8 (ix2 p k)
        - EdgeConv.mean64 (fun k' => val_main_v32 (F := Ideal) x0 x1 x2 x3 x4 x5 x6 x7 x8 (ix2 p k')) := by
  have hi : idx_main_v44 (ix2 p k) = ix2 p (⟨0, Nat.one_pos⟩ : Fin 1) :=
    funext fun a => by match a with | ⟨0, _⟩ => rfl | ⟨1, _⟩ => rfl
  rw [val_main_v45_apply, val_main_v44_apply, hi, v36_row]
  rfl

/-- The mean of the squared deviations of a row. -/
theorem v43_row (p : Fin 400000) (z : Fin 1) :
    val_main_v43 (F := Ideal) x0 x1 x2 x3 x4 x5 x6 x7 x8 (ix2 p z)
      = EdgeConv.mean64 (fun k =>
          (val_main_v32 (F := Ideal) x0 x1 x2 x3 x4 x5 x6 x7 x8 (ix2 p k)
            - EdgeConv.mean64 (fun k' => val_main_v32 (F := Ideal) x0 x1 x2 x3 x4 x5 x6 x7 x8 (ix2 p k')))
          * (val_main_v32 (F := Ideal) x0 x1 x2 x3 x4 x5 x6 x7 x8 (ix2 p k)
            - EdgeConv.mean64 (fun k' => val_main_v32 (F := Ideal) x0 x1 x2 x3 x4 x5 x6 x7 x8 (ix2 p k')))) := by
  have hi : ∀ k : Fin 64, idx_main_v40 (idx_main_v41 (ix2 p z)) k = ix2 p k := fun k =>
    funext fun a => by match a with | ⟨0, _⟩ => rfl | ⟨1, _⟩ => rfl
  rw [val_main_v43_apply, val_main_v41_apply, val_main_v40_apply, val_main_v42_apply, val_main_cst_5_apply,
    val_main_cst_4_apply]
  simp only [hi, val_main_v39_apply, v38_row]
  exact mean_read _

/-- The scaling factor of a row. -/
theorem v48_row (p : Fin 400000) (z : Fin 1) :
    val_main_v48 (F := Ideal) x0 x1 x2 x3 x4 x5 x6 x7 x8 (ix2 p z)
      = Ideal.rsqrt (EdgeConv.mean64 (fun k =>
          (val_main_v32 (F := Ideal) x0 x1 x2 x3 x4 x5 x6 x7 x8 (ix2 p k)
            - EdgeConv.mean64 (fun k' => val_main_v32 (F := Ideal) x0 x1 x2 x3 x4 x5 x6 x7 x8 (ix2 p k')))
          * (val_main_v32 (F := Ideal) x0 x1 x2 x3 x4 x5 x6 x7 x8 (ix2 p k)
            - EdgeConv.mean64 (fun k' => val_main_v32 (F := Ideal) x0 x1 x2 x3 x4 x5 x6 x7 x8 (ix2 p k'))))
          + Ideal.ofBits .f32 0x3727C5AC#32) := by
  rw [val_main_v48_apply, val_main_v47_apply, val_main_v46_apply, val_main_cst_6_apply, v43_row]
  rfl

theorem v56_row (p : Fin 400000) (j : Fin 64) :
    val_main_v56 (F := Ideal) x0 x1 x2 x3 x4 x5 x6 x7 x8 x9 x10 (ix2 p j)
      = EdgeConv.layerNorm (fun k => val_main_v32 (F := Ideal) x0 x1 x2 x3 x4 x5 x6 x7 x8 (ix2 p k)) x9 x10 j := by
  have h49 : idx_main_v49 (ix2 p j) = ix2 p (⟨0, Nat.one_pos⟩ : Fin 1) :=
    funext fun a => by match a with | ⟨0, _⟩ => rfl | ⟨1, _⟩ => rfl
  have h52 : idx_main_v51 (idx_main_v52 (ix2 p j)) = ix1 j :=
    funext fun a => by match a with | ⟨0, _⟩ => rfl
  have h55 : idx_main_v54 (idx_main_v55 (ix2 p j)) = ix1 j :=
    funext fun a => by match a with | ⟨0, _⟩ => rfl
  rw [val_main_v56_apply, val_main_v53_apply, val_main_v50_apply, v45_row, val_main_v49_apply, h49, v48_row,
    val_main_v52_apply, val_main_v51_apply, h52, val_main_v55_apply, val_main_v54_apply, h55]
  rfl

/-! ## The whole array -/

theorem msg_eq (x0 : FVec Ideal S50000x64 .f32) (x1 : IVec S2x400000 32) (x2 : FVec Ideal S400000x32 .f32)
    (x3 : FVec Ideal S160x128 .f32) (x4 : FVec Ideal S128 .f32) (x5 : FVec Ideal S128x128 .f32) (x6 : FVec Ideal S128 .f32)
    (x7 : FVec Ideal S128x64 .f32) (x8 x9 x10 : FVec Ideal S64 .f32) :
    Read.val_main_v56 (F := Ideal) x0 x1 x2 x3 x4 x5 x6 x7 x8 x9 x10
      = EdgeConv.msgF 400000 (Read.val_main_v10 (F := Ideal) x0 x1) (Read.val_main_v17 (F := Ideal) x0 x1) x2
          (EdgeConv.rowsFrom 64 0 (by omega) x3) (EdgeConv.rowsFrom 64 64 (by omega) x3) (EdgeConv.rowsFrom 32 128 (by omega) x3)
          x4 x5 x6 x7 x8 x9 x10 := by
  funext i
  obtain ⟨p, j, rfl⟩ : ∃ p j, i = ix2 p j := ⟨i 0, i 1, eq_ix2 i⟩
  rw [EdgeConv.msgF_apply, v56_row]
  unfold EdgeConv.tail
  refine congrArg (fun f => EdgeConv.layerNorm f x9 x10 j) ?_
  funext k
  rw [v32_row]
  simp only [v27_row, v22_row]

end Cert.ReferenceIdeal.RefValue

end
-- ==== Proof.RefWhole.lean ====
/-
  The reference program's two results as the same functions of the argument arrays that the kernel program's
  results are.

  Both programs number the edges' start and end nodes from the two rows of the edge list, count a negative node
  number from the end, gather the nodes' rows, and add the edges' messages into their end nodes from zero, by the
  same operations over the same shapes; only the names of the shapes and of the operations' dimension records
  differ between the two programs, and those names abbreviate the same literals. What is left between the two is
  the row-wise arithmetic: the message network (`msg_eq`) and the update network (taken as a hypothesis here).
-/
import proofs.«149934_j74174085202606_1_alg».proof.Proof.RefMsg
import proofs.«149934_j74174085202606_1_alg».proof.Proof.Whole
import proofs.«149934_j74174085202606_1_alg».proof.Proof.Gen.ReferenceIdeal.Read

noncomputable section

namespace Cert.ReferenceIdeal.RefValue

open Cert.ReferenceIdeal Cert.ReferenceIdeal.Read Idealize.ShloMosaic Idealize.ShloMosaic.TcCoe Idealize.SL.Sem

variable [Cert.KernelIdeal.Facts] [Cert.ReferenceIdeal.Facts]

/-- The start nodes' gathered rows: the same gather of the same wrapped row 0 of the edge list. -/
theorem start_rows_eq (x0 : FVec Ideal S50000x64 .f32) (x1 : IVec S2x400000 32) :
    Read.val_main_v10 (F := Ideal) x0 x1
      = Cert.KernelIdeal.Whole.rowsOf x0 (Cert.KernelIdeal.Whole.startNodes x1) := rfl

/-- The end nodes' gathered rows: the same gather of the same wrapped row 1 of the edge list. -/
theorem end_rows_eq (x0 : FVec Ideal S50000x64 .f32) (x1 : IVec S2x400000 32) :
    Read.val_main_v17 (F := Ideal) x0 x1
      = Cert.KernelIdeal.Whole.rowsOf x0 (Cert.KernelIdeal.Whole.endNodes x1) := rfl

/-- The edges' messages. -/
theorem val56_eq_msg (x0 : FVec Ideal S50000x64 .f32) (x1 : IVec S2x400000 32) (x2 : FVec Ideal S400000x32 .f32)
    (x3 : FVec Ideal S160x128 .f32) (x4 : FVec Ideal S128 .f32) (x5 : FVec Ideal S128x128 .f32) (x6 : FVec Ideal S128 .f32)
    (x7 : FVec Ideal S128x64 .f32) (x8 x9 x10 : FVec Ideal S64 .f32) :
    Read.val_main_v56 (F := Ideal) x0 x1 x2 x3 x4 x5 x6 x7 x8 x9 x10 = Cert.KernelIdeal.Whole.msg x0 x1 x2 x3 x4 x5 x6 x7 x8 x9 x10 := by
  rw [msg_eq, start_rows_eq, end_rows_eq]
  rfl

/-- The messages added up into their end nodes: the same scatter-add, from the same zero array, at row 1 of the
    edge list as a column. -/
theorem val59_eq_agg (x0 : FVec Ideal S50000x64 .f32) (x1 : IVec S2x400000 32) (x2 : FVec Ideal S400000x32 .f32)
    (x3 : FVec Ideal S160x128 .f32) (x4 : FVec Ideal S128 .f32) (x5 : FVec Ideal S128x128 .f32) (x6 : FVec Ideal S128 .f32)
    (x7 : FVec Ideal S128x64 .f32) (x8 x9 x10 : FVec Ideal S64 .f32) :
    Read.val_main_v59 (F := Ideal) x0 x1 x2 x3 x4 x5 x6 x7 x8 x9 x10
      = Cert.KernelIdeal.Whole.agg x1 (Read.val_main_v56 (F := Ideal) x0 x1 x2 x3 x4 x5 x6 x7 x8 x9 x10) := rfl

theorem out_msg (m : (ℓ : Loc nD τ sig) → Buf (Elt Ideal) ℓ) (c : Dev nD) :
    Cert.ReferenceIdeal.Value.res_main_v56 (F := Ideal) m c
      = Cert.KernelIdeal.Whole.msg (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  (Read.val_main_v56_eq m c).trans (val56_eq_msg _ _ _ _ _ _ _ _ _ _ _)

theorem out_new
    (hupd : ∀ (x0 : FVec Ideal S50000x64 .f32) (x1 : IVec S2x400000 32) (x2 : FVec Ideal S400000x32 .f32)
    (x3 : FVec Ideal S160x128 .f32) (x4 : FVec Ideal S128 .f32) (x5 : FVec Ideal S128x128 .f32) (x6 : FVec Ideal S128 .f32)
    (x7 : FVec Ideal S128x64 .f32) (x8 x9 x10 : FVec Ideal S64 .f32)
    (x11 : FVec Ideal S128x128 .f32) (x12 : FVec Ideal S128 .f32) (x13 : FVec Ideal S128x128 .f32) (x14 : FVec Ideal S128 .f32)
    (x15 : FVec Ideal S128x64 .f32) (x16 x17 x18 : FVec Ideal S64 .f32),
      Read.val_main_v99 (F := Ideal) x0 x1 x2 x3 x4 x5 x6 x7 x8 x9 x10 x11 x12 x13 x14 x15 x16 x17 x18
        = EdgeConv.updF 50000 x0 (Read.val_main_v59 (F := Ideal) x0 x1 x2 x3 x4 x5 x6 x7 x8 x9 x10)
            (EdgeConv.rowsFrom 64 0 (by omega) x11) (EdgeConv.rowsFrom 64 64 (by omega) x11) x12 x13 x14 x15 x16 x17 x18)
    (m : (ℓ : Loc nD τ sig) → Buf (Elt Ideal) ℓ) (c : Dev nD) :
    Cert.ReferenceIdeal.Value.res_main_v99 (F := Ideal) m c
      = Cert.KernelIdeal.Whole.hNew (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) := by
  refine (Read.val_main_v99_eq m c).trans ((hupd _ _ _ _ _ _ _ _ _ _ _ _ _ _ _ _ _ _ _).trans ?_)
  rw [val59_eq_agg, val56_eq_msg]
  rfl

end Cert.ReferenceIdeal.RefValue

end
-- ==== Proof.lean ====
/-
  One message-passing layer of a graph network, as two row-blocked kernels between host gathers and a host
  scatter-add, against the plain array program: equal results on the extended reals.

  Both programs gather the start and end nodes' rows for every edge, push [h(src); h(dst); attr] through a three-layer
  network with a layer normalisation, add the messages into their end nodes, and push [h; agg] through a second such
  network, adding h. They differ in two ways only. The plain program multiplies the joined row by the whole first
  weight, where the kernels multiply each part by its own band of rows of the weight and add the products: a sum over
  160 (or 128) indices taken part by part, which needs only that addition is commutative and associative, so no
  finiteness of the inputs is used. And the kernels work on blocks of 4000 edges and of 5000 nodes: every entry of a
  result row depends on that row of the row-indexed operands only, so the blocks' results are the blocks of the whole
  result. The gathers and the scatter-add are the same operations of the same arrays on both sides and are never opened.

  The modules: Spec (the row-wise mathematics), Whole (the two results as functions of the arguments), MsgBlocks, MsgArray
  and UpdBlocks (each kernel's block, and with it its whole output array, is that row-wise function), KernelRun and KernelValue (the
  kernel program's run, and its two result arrays walked back to the arguments), RefMsg, RefUpd and RefWhole (the plain
  program's two results are the same functions). The three frames are the programs' runs with the results dropped.
-/
import proofs.«149934_j74174085202606_1_alg».proof.Defs
import proofs.«149934_j74174085202606_1_alg».proof.Proof.Gen.Kernel
import proofs.«149934_j74174085202606_1_alg».proof.Proof.Gen.Kernel.Frame
import proofs.«149934_j74174085202606_1_alg».proof.Proof.Gen.KernelIdeal
import proofs.«149934_j74174085202606_1_alg».proof.Proof.Gen.KernelIdeal.Frame
import proofs.«149934_j74174085202606_1_alg».proof.Proof.Gen.ReferenceIdeal
import proofs.«149934_j74174085202606_1_alg».proof.Proof.Gen.ReferenceIdeal.Run
import proofs.«149934_j74174085202606_1_alg».proof.Proof.Gen.Pre_finite_inputs
import proofs.«149934_j74174085202606_1_alg».proof.Proof.KernelRun
import proofs.«149934_j74174085202606_1_alg».proof.Proof.KernelValue
import proofs.«149934_j74174085202606_1_alg».proof.Proof.MsgBlocks
import proofs.«149934_j74174085202606_1_alg».proof.Proof.MsgArray
import proofs.«149934_j74174085202606_1_alg».proof.Proof.UpdBlocks
import proofs.«149934_j74174085202606_1_alg».proof.Proof.RefUpd
import proofs.«149934_j74174085202606_1_alg».proof.Proof.RefWhole
import Idealize.ShloMosaic.Adequacy
import Idealize.ShloMosaic.Init

noncomputable section

namespace Cert.Proof

open Idealize.ShloMosaic Idealize.ShloMosaic.TcCoe Idealize.SL.Sem

/-- The word-level kernel program's frame. -/
theorem frame_k : Cert.frame_Kernel := fun m ρ _ => Cert.Kernel.Gen.frame m ρ

/-- The idealized kernel program's frame. -/
theorem frame_ki : Cert.frame_KernelIdeal := fun m ρ _ => Cert.KernelIdeal.Gen.frame m ρ

/-- The plain program's frame: its run, the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote nothing. -/
theorem preserves : Cert.preserves_Kernel_KernelIdeal := trivial

/-- Both programs end with the nodes' new rows and the messages at the same functions of arguments that agree. -/
theorem algebraic : Cert.algebraic_KernelIdeal_ReferenceIdeal := by
  intro m ρ m' ρ' _ hagree
  refine ⟨fun c => Cert.KernelIdeal.Whole.hNew (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)),
    fun c => Cert.KernelIdeal.Whole.msg (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.WholeValue.result_new m ρ c (Cert.KernelIdeal.MsgArray.array_of_block Cert.KernelIdeal.MsgValue.block_eq) Cert.KernelIdeal.UpdValue.array_eq),
        (h c).2.1.trans (Cert.KernelIdeal.WholeValue.result_msg m ρ c (Cert.KernelIdeal.MsgArray.array_of_block Cert.KernelIdeal.MsgValue.block_eq)), (h c).2.2⟩)
      (Cert.KernelIdeal.Run.run_main (F := Ideal) m ρ)
  · refine (θ_run Cert.ReferenceIdeal.defs _ _).mono (fun r h c => ⟨(h c).1.trans ?_, (h c).2.1.trans ?_, (h c).2.2⟩)
      (Cert.ReferenceIdeal.Value.run (F := Ideal) m' ρ')
    · obtain ⟨h0, h1, h2, h3, h4, h5, h6, h7, h8, h9, h10, h11, h12, h13, h14, h15, h16, h17, h18⟩ := hagree c
      rw [Cert.ReferenceIdeal.RefValue.out_new Cert.ReferenceIdeal.RefValue.upd_eq m' c,
        h0, h1, h2, h3, h4, h5, h6, h7, h8, h9, h10, h11, h12, h13, h14, h15, h16, h17, h18]
    · obtain ⟨h0, h1, h2, h3, h4, h5, h6, h7, h8, h9, h10, -⟩ := hagree c
      rw [Cert.ReferenceIdeal.RefValue.out_msg m' c, h0, h1, h2, h3, h4, h5, h6, h7, h8, h9, h10]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
